-- ==== Defs.lean ====
def Pre_Kernel [hPre_finite_inputs : Cert.Pre_finite_inputs.Facts] (m : (ℓ : Loc Cert.Kernel.nD Cert.Kernel.τ Cert.Kernel.sig) → Buf (Elt Bits) ℓ) : Prop :=
  ∀ c : Dev Cert.Kernel.nD,
    (Cert.Pre_finite_inputs.fn (F := Bits) (m ((c.tc : Thread Cert.Kernel.nD Cert.Kernel.τ).loc Cert.Kernel.main_arg0)) (m ((c.tc : Thread Cert.Kernel.nD Cert.Kernel.τ).loc Cert.Kernel.main_arg1)) (m ((c.tc : Thread Cert.Kernel.nD Cert.Kernel.τ).loc Cert.Kernel.main_arg2)) (m ((c.tc : Thread Cert.Kernel.nD Cert.Kernel.τ).loc Cert.Kernel.main_arg3)) (m ((c.tc : Thread Cert.Kernel.nD Cert.Kernel.τ).loc Cert.Kernel.main_arg4))) = (fun _ => 1#1)

def Pre_KernelIdeal [hPre_finite_inputs : Cert.Pre_finite_inputs.Facts] (m : (ℓ : Loc Cert.KernelIdeal.nD Cert.KernelIdeal.τ Cert.KernelIdeal.sig) → Buf (Elt Ideal) ℓ) : Prop :=
  ∀ c : Dev Cert.KernelIdeal.nD,
    (Cert.Pre_finite_inputs.fn (F := Ideal) (m ((c.tc : Thread Cert.KernelIdeal.nD Cert.KernelIdeal.τ).loc Cert.KernelIdeal.main_arg0)) (m ((c.tc : Thread Cert.KernelIdeal.nD Cert.KernelIdeal.τ).loc Cert.KernelIdeal.main_arg1)) (m ((c.tc : Thread Cert.KernelIdeal.nD Cert.KernelIdeal.τ).loc Cert.KernelIdeal.main_arg2)) (m ((c.tc : Thread Cert.KernelIdeal.nD Cert.KernelIdeal.τ).loc Cert.KernelIdeal.main_arg3)) (m ((c.tc : Thread Cert.KernelIdeal.nD Cert.KernelIdeal.τ).loc Cert.KernelIdeal.main_arg4))) = (fun _ => 1#1)

def Pre_ReferenceIdeal [hPre_finite_inputs : Cert.Pre_finite_inputs.Facts] (m : (ℓ : Loc Cert.ReferenceIdeal.nD Cert.ReferenceIdeal.τ Cert.ReferenceIdeal.sig) → Buf (Elt Ideal) ℓ) : Prop :=
  ∀ c : Dev Cert.ReferenceIdeal.nD,
    (Cert.Pre_finite_inputs.fn (F := Ideal) (m ((c.tc : Thread Cert.ReferenceIdeal.nD Cert.ReferenceIdeal.τ).loc Cert.ReferenceIdeal.main_arg0)) (m ((c.tc : Thread Cert.ReferenceIdeal.nD Cert.ReferenceIdeal.τ).loc Cert.ReferenceIdeal.main_arg1)) (m ((c.tc : Thread Cert.ReferenceIdeal.nD Cert.ReferenceIdeal.τ).loc Cert.ReferenceIdeal.main_arg2)) (m ((c.tc : Thread Cert.ReferenceIdeal.nD Cert.ReferenceIdeal.τ).loc Cert.ReferenceIdeal.main_arg3)) (m ((c.tc : Thread Cert.ReferenceIdeal.nD Cert.ReferenceIdeal.τ).loc Cert.ReferenceIdeal.main_arg4))) = (fun _ => 1#1)

def frame_Kernel [hKernel : Cert.Kernel.Facts] [hPre_finite_inputs : Cert.Pre_finite_inputs.Facts] : Prop :=
  ∀ (m : (ℓ : Loc Cert.Kernel.nD Cert.Kernel.τ Cert.Kernel.sig) → Buf (Elt Bits) ℓ) (g : Dev Cert.Kernel.nD → PrngReg), Pre_Kernel m →
    θ_run (Cert.Kernel.defs (F := Bits)) (onTc (τ := Cert.Kernel.τ) (Cert.Kernel.main (F := Bits))) ⟨m, fun _ => 0, g⟩ (fun r => ∀ c : Dev Cert.Kernel.nD,
      r.2.mem ((c.tc : Thread Cert.Kernel.nD Cert.Kernel.τ).loc Cert.Kernel.main_arg0) = m ((c.tc : Thread Cert.Kernel.nD Cert.Kernel.τ).loc Cert.Kernel.main_arg0)
      ∧ r.2.mem ((c.tc : Thread Cert.Kernel.nD Cert.Kernel.τ).loc Cert.Kernel.main_arg1) = m ((c.tc : Thread Cert.Kernel.nD Cert.Kernel.τ).loc Cert.Kernel.main_arg1)
      ∧ r.2.mem ((c.tc : Thread Cert.Kernel.nD Cert.Kernel.τ).loc Cert.Kernel.main_arg2) = m ((c.tc : Thread Cert.Kernel.nD Cert.Kernel.τ).loc Cert.Kernel.main_arg2)
      ∧ r.2.mem ((c.tc : Thread Cert.Kernel.nD Cert.Kernel.τ).loc Cert.Kernel.main_arg3) = m ((c.tc : Thread Cert.Kernel.nD Cert.Kernel.τ).loc Cert.Kernel.main_arg3)
      ∧ r.2.mem ((c.tc : Thread Cert.Kernel.nD Cert.Kernel.τ).loc Cert.Kernel.main_arg4) = m ((c.tc : Thread Cert.Kernel.nD Cert.Kernel.τ).loc Cert.Kernel.main_arg4))

def frame_KernelIdeal [hKernelIdeal : Cert.KernelIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg), Pre_KernelIdeal m →
    θ_run (Cert.KernelIdeal.defs (F := Ideal)) (onTc (τ := Cert.KernelIdeal.τ) (Cert.KernelIdeal.main (F := Ideal))) ⟨m, fun _ => 0, g⟩ (fun r => ∀ c : Dev Cert.KernelIdeal.nD,
      r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
      ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
      ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
      ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
      ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))

def frame_ReferenceIdeal [hReferenceIdeal : Cert.ReferenceIdeal.Facts] [hPre_finite_inputs : Cert.Pre_finite_inputs.Facts] : Prop :=
  ∀ (m : (ℓ : Loc Cert.ReferenceIdeal.nD Cert.ReferenceIdeal.τ Cert.ReferenceIdeal.sig) → Buf (Elt Ideal) ℓ) (g : Dev Cert.ReferenceIdeal.nD → PrngReg), Pre_ReferenceIdeal m →
    θ_run (Cert.ReferenceIdeal.defs (F := Ideal)) (onTc (τ := Cert.ReferenceIdeal.τ) (Cert.ReferenceIdeal.main (F := Ideal))) ⟨m, fun _ => 0, g⟩ (fun r => ∀ c : Dev Cert.ReferenceIdeal.nD,
      r.2.mem ((c.tc : Thread Cert.ReferenceIdeal.nD Cert.ReferenceIdeal.τ).loc Cert.ReferenceIdeal.main_arg0) = m ((c.tc : Thread Cert.ReferenceIdeal.nD Cert.ReferenceIdeal.τ).loc Cert.ReferenceIdeal.main_arg0)
      ∧ r.2.mem ((c.tc : Thread Cert.ReferenceIdeal.nD Cert.ReferenceIdeal.τ).loc Cert.ReferenceIdeal.main_arg1) = m ((c.tc : Thread Cert.ReferenceIdeal.nD Cert.ReferenceIdeal.τ).loc Cert.ReferenceIdeal.main_arg1)
      ∧ r.2.mem ((c.tc : Thread Cert.ReferenceIdeal.nD Cert.ReferenceIdeal.τ).loc Cert.ReferenceIdeal.main_arg2) = m ((c.tc : Thread Cert.ReferenceIdeal.nD Cert.ReferenceIdeal.τ).loc Cert.ReferenceIdeal.main_arg2)
      ∧ r.2.mem ((c.tc : Thread Cert.ReferenceIdeal.nD Cert.ReferenceIdeal.τ).loc Cert.ReferenceIdeal.main_arg3) = m ((c.tc : Thread Cert.ReferenceIdeal.nD Cert.ReferenceIdeal.τ).loc Cert.ReferenceIdeal.main_arg3)
      ∧ r.2.mem ((c.tc : Thread Cert.ReferenceIdeal.nD Cert.ReferenceIdeal.τ).loc Cert.ReferenceIdeal.main_arg4) = m ((c.tc : Thread Cert.ReferenceIdeal.nD Cert.ReferenceIdeal.τ).loc Cert.ReferenceIdeal.main_arg4))

def preserves_Kernel_KernelIdeal : Prop :=
  True

def algebraic_KernelIdeal_ReferenceIdeal [hKernelIdeal : Cert.KernelIdeal.Facts] [hReferenceIdeal : Cert.ReferenceIdeal.Facts] [hPre_finite_inputs : Cert.Pre_finite_inputs.Facts] : Prop :=
  ∀ (m : (ℓ : Loc Cert.KernelIdeal.nD Cert.KernelIdeal.τ Cert.KernelIdeal.sig) → Buf (Elt Ideal) ℓ) (g : Dev Cert.KernelIdeal.nD → PrngReg)
    (m' : (ℓ : Loc Cert.ReferenceIdeal.nD Cert.ReferenceIdeal.τ Cert.ReferenceIdeal.sig) → Buf (Elt Ideal) ℓ) (g' : Dev Cert.ReferenceIdeal.nD → PrngReg), Pre_KernelIdeal m →
    (∀ c : Dev Cert.KernelIdeal.nD,
      m' ((c.tc : Thread Cert.ReferenceIdeal.nD Cert.ReferenceIdeal.τ).loc Cert.ReferenceIdeal.main_arg0) = m ((c.tc : Thread Cert.KernelIdeal.nD Cert.KernelIdeal.τ).loc Cert.KernelIdeal.main_arg0)
      ∧ m' ((c.tc : Thread Cert.ReferenceIdeal.nD Cert.ReferenceIdeal.τ).loc Cert.ReferenceIdeal.main_arg1) = m ((c.tc : Thread Cert.KernelIdeal.nD Cert.KernelIdeal.τ).loc Cert.KernelIdeal.main_arg1)
      ∧ m' ((c.tc : Thread Cert.ReferenceIdeal.nD Cert.ReferenceIdeal.τ).loc Cert.ReferenceIdeal.main_arg2) = m ((c.tc : Thread Cert.KernelIdeal.nD Cert.KernelIdeal.τ).loc Cert.KernelIdeal.main_arg2)
      ∧ m' ((c.tc : Thread Cert.ReferenceIdeal.nD Cert.ReferenceIdeal.τ).loc Cert.ReferenceIdeal.main_arg3) = m ((c.tc : Thread Cert.KernelIdeal.nD Cert.KernelIdeal.τ).loc Cert.KernelIdeal.main_arg3)
      ∧ m' ((c.tc : Thread Cert.ReferenceIdeal.nD Cert.ReferenceIdeal.τ).loc Cert.ReferenceIdeal.main_arg4) = m ((c.tc : Thread Cert.KernelIdeal.nD Cert.KernelIdeal.τ).loc Cert.KernelIdeal.main_arg4)) →
    ∃ (v0 : (c : Dev Cert.KernelIdeal.nD) → Buf (Elt Ideal) ((c.tc : Thread Cert.KernelIdeal.nD Cert.KernelIdeal.τ).loc Cert.KernelIdeal.main_v18)),
      θ_run (Cert.KernelIdeal.defs (F := Ideal)) (onTc (τ := Cert.KernelIdeal.τ) (Cert.KernelIdeal.main (F := Ideal))) ⟨m, fun _ => 0, g⟩ (fun r => ∀ c : Dev Cert.KernelIdeal.nD,
          r.2.mem ((c.tc : Thread Cert.KernelIdeal.nD Cert.KernelIdeal.τ).loc Cert.KernelIdeal.main_v18) = v0 c
          ∧ r.2.mem ((c.tc : Thread Cert.KernelIdeal.nD Cert.KernelIdeal.τ).loc Cert.KernelIdeal.main_arg0) = m ((c.tc : Thread Cert.KernelIdeal.nD Cert.KernelIdeal.τ).loc Cert.KernelIdeal.main_arg0)
          ∧ r.2.mem ((c.tc : Thread Cert.KernelIdeal.nD Cert.KernelIdeal.τ).loc Cert.KernelIdeal.main_arg1) = m ((c.tc : Thread Cert.KernelIdeal.nD Cert.KernelIdeal.τ).loc Cert.KernelIdeal.main_arg1)
          ∧ r.2.mem ((c.tc : Thread Cert.KernelIdeal.nD Cert.KernelIdeal.τ).loc Cert.KernelIdeal.main_arg2) = m ((c.tc : Thread Cert.KernelIdeal.nD Cert.KernelIdeal.τ).loc Cert.KernelIdeal.main_arg2)
          ∧ r.2.mem ((c.tc : Thread Cert.KernelIdeal.nD Cert.KernelIdeal.τ).loc Cert.KernelIdeal.main_arg3) = m ((c.tc : Thread Cert.KernelIdeal.nD Cert.KernelIdeal.τ).loc Cert.KernelIdeal.main_arg3)
          ∧ r.2.mem ((c.tc : Thread Cert.KernelIdeal.nD Cert.KernelIdeal.τ).loc Cert.KernelIdeal.main_arg4) = m ((c.tc : Thread Cert.KernelIdeal.nD Cert.KernelIdeal.τ).loc Cert.KernelIdeal.main_arg4))
      ∧ θ_run (Cert.ReferenceIdeal.defs (F := Ideal)) (onTc (τ := Cert.ReferenceIdeal.τ) (Cert.ReferenceIdeal.main (F := Ideal))) ⟨m', fun _ => 0, g'⟩ (fun r => ∀ c : Dev Cert.ReferenceIdeal.nD,
          r.2.mem ((c.tc : Thread Cert.ReferenceIdeal.nD Cert.ReferenceIdeal.τ).loc Cert.ReferenceIdeal.main_v8) = v0 c
          ∧ r.2.mem ((c.tc : Thread Cert.ReferenceIdeal.nD Cert.ReferenceIdeal.τ).loc Cert.ReferenceIdeal.main_arg0) = m' ((c.tc : Thread Cert.ReferenceIdeal.nD Cert.ReferenceIdeal.τ).loc Cert.ReferenceIdeal.main_arg0)
          ∧ r.2.mem ((c.tc : Thread Cert.ReferenceIdeal.nD Cert.ReferenceIdeal.τ).loc Cert.ReferenceIdeal.main_arg1) = m' ((c.tc : Thread Cert.ReferenceIdeal.nD Cert.ReferenceIdeal.τ).loc Cert.ReferenceIdeal.main_arg1)
          ∧ r.2.mem ((c.tc : Thread Cert.ReferenceIdeal.nD Cert.ReferenceIdeal.τ).loc Cert.ReferenceIdeal.main_arg2) = m' ((c.tc : Thread Cert.ReferenceIdeal.nD Cert.ReferenceIdeal.τ).loc Cert.ReferenceIdeal.main_arg2)
          ∧ r.2.mem ((c.tc : Thread Cert.ReferenceIdeal.nD Cert.ReferenceIdeal.τ).loc Cert.ReferenceIdeal.main_arg3) = m' ((c.tc : Thread Cert.ReferenceIdeal.nD Cert.ReferenceIdeal.τ).loc Cert.ReferenceIdeal.main_arg3)
          ∧ r.2.mem ((c.tc : Thread Cert.ReferenceIdeal.nD Cert.ReferenceIdeal.τ).loc Cert.ReferenceIdeal.main_arg4) = m' ((c.tc : Thread Cert.ReferenceIdeal.nD Cert.ReferenceIdeal.τ).loc Cert.ReferenceIdeal.main_arg4))

def Claim : Prop :=
  ∃ (hKernel : Cert.Kernel.Facts) (hKernelIdeal : Cert.KernelIdeal.Facts) (hReferenceIdeal : Cert.ReferenceIdeal.Facts) (hPre_finite_inputs : Cert.Pre_finite_inputs.Facts),
    frame_Kernel (hKernel := hKernel) (hPre_finite_inputs := hPre_finite_inputs)
    ∧ frame_KernelIdeal (hKernelIdeal := hKernelIdeal) (hPre_finite_inputs := hPre_finite_inputs)
    ∧ frame_ReferenceIdeal (hReferenceIdeal := hReferenceIdeal) (hPre_finite_inputs := hPre_finite_inputs)
    ∧ preserves_Kernel_KernelIdeal
    ∧ algebraic_KernelIdeal_ReferenceIdeal (hKernelIdeal := hKernelIdeal) (hReferenceIdeal := hReferenceIdeal) (hPre_finite_inputs := hPre_finite_inputs)
-- ==== Pre_finite_inputs.lean ====
abbrev S4x2048x1024 : Shape := ⟨3, ![4, 2048, 1024]⟩
abbrev S16384x3072 : Shape := ⟨2, ![16384, 3072]⟩
abbrev S16384 : Shape := ⟨1, ![16384]⟩
abbrev S_ : Shape := ⟨0, ![]⟩

class Facts : Prop where
  bcast_S_S4x2048x1024 : S_.BroadcastsInDim S4x2048x1024 (![] : Fin 0 → Fin S4x2048x1024.rank)
  reducesTo_S4x2048x1024_S_d0_1_2 : S4x2048x1024.ReducesTo [0, 1, 2] S_
  h_S_ : 0 < S_.numel
  bcast_S_S16384x3072 : S_.BroadcastsInDim S16384x3072 (![] : Fin 0 → Fin S16384x3072.rank)
  reducesTo_S16384x3072_S_d0_1 : S16384x3072.ReducesTo [0, 1] S_
  bcast_S_S16384 : S_.BroadcastsInDim S16384 (![] : Fin 0 → Fin S16384.rank)
  reducesTo_S16384_S_d0 : S16384.ReducesTo [0] S_

variable [Facts]

def fn_part1 {F : FTy → Type} [FloatOps F] (main_arg4 : FVec F S16384 .f32) (main_v13 : IVec S_ 1) (main_v16 : IVec S16384x3072 1) : IVec S_ 1 :=
  let main_c_5 : IVec S_ 1 := constantI S_ 1 1#1
  let main_v17 : IVec S_ 1 := (fun x v => Host.reduce IntOp.andi x v reducesTo_S16384x3072_S_d0_1 h_S_) main_v16 main_c_5
  let main_v18 : IVec S_ 1 := andi main_v13 main_v17
  let main_v19 : FVec F S16384 .f32 := Host.absf main_arg4
  let main_cst_6 : FVec F S_ .f32 := constant S_ .f32 0x7F800000#32
  let main_v20 : FVec F S16384 .f32 := broadcastInDim S16384 ![] bcast_S_S16384 main_cst_6
  let main_v21 : IVec S16384 1 := cmpf .olt main_v19 main_v20
  let main_c_7 : IVec S_ 1 := constantI S_ 1 1#1
  let main_v22 : IVec S_ 1 := (fun x v => Host.reduce IntOp.andi x v reducesTo_S16384_S_d0 h_S_) main_v21 main_c_7
  let main_v23 : IVec S_ 1 := andi main_v18 main_v22
  main_v23

def fn {F : FTy → Type} [FloatOps F] (main_arg0 : FVec F S4x2048x1024 .f32) (main_arg1 : FVec F S4x2048x1024 .f32) (main_arg2 : FVec F S4x2048x1024 .f32) (main_arg3 : FVec F S16384x3072 .f32) (main_arg4 : FVec F S16384 .f32) : IVec S_ 1 :=
  let main_v0 : FVec F S4x2048x1024 .f32 := Host.absf main_arg0
  let main_cst : FVec F S_ .f32 := constant S_ .f32 0x7F800000#32
  let main_v1 : FVec F S4x2048x1024 .f32 := broadcastInDim S4x2048x1024 ![] bcast_S_S4x2048x1024 main_cst
  let main_v2 : IVec S4x2048x1024 1 := cmpf .olt main_v0 main_v1
  let main_c : IVec S_ 1 := constantI S_ 1 1#1
  let main_v3 : IVec S_ 1 := (fun x v => Host.reduce IntOp.andi x v reducesTo_S4x2048x1024_S_d0_1_2 h_S_) main_v2 main_c
  let main_v4 : FVec F S4x2048x1024 .f32 := Host.absf main_arg1
  let main_cst_0 : FVec F S_ .f32 := constant S_ .f32 0x7F800000#32
  let main_v5 : FVec F S4x2048x1024 .f32 := broadcastInDim S4x2048x1024 ![] bcast_S_S4x2048x1024 main_cst_0
  let main_v6 : IVec S4x2048x1024 1 := cmpf .olt main_v4 main_v5
  let main_c_1 : IVec S_ 1 := constantI S_ 1 1#1
  let main_v7 : IVec S_ 1 := (fun x v => Host.reduce IntOp.andi x v reducesTo_S4x2048x1024_S_d0_1_2 h_S_) main_v6 main_c_1
  let main_v8 : IVec S_ 1 := andi main_v3 main_v7
  let main_v9 : FVec F S4x2048x1024 .f32 := Host.absf main_arg2
  let main_cst_2 : FVec F S_ .f32 := constant S_ .f32 0x7F800000#32
  let main_v10 : FVec F S4x2048x1024 .f32 := broadcastInDim S4x2048x1024 ![] bcast_S_S4x2048x1024 main_cst_2
  let main_v11 : IVec S4x2048x1024 1 := cmpf .olt main_v9 main_v10
  let main_c_3 : IVec S_ 1 := constantI S_ 1 1#1
  let main_v12 : IVec S_ 1 := (fun x v => Host.reduce IntOp.andi x v reducesTo_S4x2048x1024_S_d0_1_2 h_S_) main_v11 main_c_3
  let main_v13 : IVec S_ 1 := andi main_v8 main_v12
  let main_v14 : FVec F S16384x3072 .f32 := Host.absf main_arg3
  let main_cst_4 : FVec F S_ .f32 := constant S_ .f32 0x7F800000#32
  let main_v15 : FVec F S16384x3072 .f32 := broadcastInDim S16384x3072 ![] bcast_S_S16384x3072 main_cst_4
  let main_v16 : IVec S16384x3072 1 := cmpf .olt main_v14 main_v15
  fn_part1 (F := F) main_arg4 main_v13 main_v16
-- ==== Kernel.lean ====
abbrev S4x2048x1024 : Shape := ⟨3, ![4, 2048, 1024]⟩
abbrev S16384x3072 : Shape := ⟨2, ![16384, 3072]⟩
abbrev S16384 : Shape := ⟨1, ![16384]⟩
abbrev S1024x16x3072 : Shape := ⟨3, ![1024, 16, 3072]⟩
abbrev S_ : Shape := ⟨0, ![]⟩
abbrev S1024x3072 : Shape := ⟨2, ![1024, 3072]⟩
abbrev S1024x16 : Shape := ⟨2, ![1024, 16]⟩
abbrev S1024 : Shape := ⟨1, ![1024]⟩
abbrev S1024x1024 : Shape := ⟨2, ![1024, 1024]⟩
abbrev S1x1024 : Shape := ⟨2, ![1, 1024]⟩
abbrev S8192x1024 : Shape := ⟨2, ![8192, 1024]⟩
abbrev S512x1024 : Shape := ⟨2, ![512, 1024]⟩

abbrev nBuf : Space → Nat
  | .hbm => 26
  | .vmem => 12
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S16384x3072, .f32⟩
  | .hbm, ⟨4, _⟩ => ⟨S16384, .f32⟩
  | .hbm, ⟨5, _⟩ => ⟨S1024x16x3072, .f32⟩
  | .hbm, ⟨6, _⟩ => ⟨S_, .f32⟩
  | .hbm, ⟨7, _⟩ => ⟨S1024x3072, .f32⟩
  | .hbm, ⟨8, _⟩ => ⟨S1024x16, .f32⟩
  | .hbm, ⟨9, _⟩ => ⟨S_, .f32⟩
  | .hbm, ⟨10, _⟩ => ⟨S1024, .f32⟩
  | .hbm, ⟨11, _⟩ => ⟨S1024x1024, .f32⟩
  | .hbm, ⟨12, _⟩ => ⟨S1024x1024, .f32⟩
  | .hbm, ⟨13, _⟩ => ⟨S1024x1024, .bf16⟩
  | .hbm, ⟨14, _⟩ => ⟨S1024x1024, .f32⟩
  | .hbm, ⟨15, _⟩ => ⟨S1024x1024, .f32⟩
  | .hbm, ⟨16, _⟩ => ⟨S1024x1024, .bf16⟩
  | .hbm, ⟨17, _⟩ => ⟨S1024x1024, .f32⟩
  | .hbm, ⟨18, _⟩ => ⟨S1024x1024, .f32⟩
  | .hbm, ⟨19, _⟩ => ⟨S1024x1024, .bf16⟩
  | .hbm, ⟨20, _⟩ => ⟨S1x1024, .f32⟩
  | .hbm, ⟨21, _⟩ => ⟨S8192x1024, .f32⟩
  | .hbm, ⟨22, _⟩ => ⟨S8192x1024, .f32⟩
  | .hbm, ⟨23, _⟩ => ⟨S8192x1024, .f32⟩
  | .hbm, ⟨24, _⟩ => ⟨S8192x1024, .f32⟩
  | .hbm, ⟨25, _⟩ => ⟨S4x2048x1024, .f32⟩
  | .local _ .vmem, ⟨0, _⟩ => ⟨S512x1024, .f32⟩
  | .local _ .vmem, ⟨1, _⟩ => ⟨S512x1024, .f32⟩
  | .local _ .vmem, ⟨2, _⟩ => ⟨S512x1024, .f32⟩
  | .local _ .vmem, ⟨3, _⟩ => ⟨S512x1024, .f32⟩
  | .local _ .vmem, ⟨4, _⟩ => ⟨S512x1024, .f32⟩
  | .local _ .vmem, ⟨5, _⟩ => ⟨S512x1024, .f32⟩
  | .local _ .vmem, ⟨6, _⟩ => ⟨S1024x1024, .bf16⟩
  | .local _ .vmem, ⟨7, _⟩ => ⟨S1024x1024, .bf16⟩
  | .local _ .vmem, ⟨8, _⟩ => ⟨S1024x1024, .bf16⟩
  | .local _ .vmem, ⟨9, _⟩ => ⟨S1x1024, .f32⟩
  | .local _ .vmem, ⟨10, _⟩ => ⟨S512x1024, .f32⟩
  | .local _ .vmem, ⟨11, _⟩ => ⟨S512x1024, .f32⟩
  | _, _ => ⟨S4x2048x1024, .f32⟩

abbrev bufScoped : (cs : CoreSpace) → Fin (nBuf (.core cs)) → Bool
  | .vmem, ⟨0, _⟩ => true
  | .vmem, ⟨1, _⟩ => true
  | .vmem, ⟨2, _⟩ => true
  | .vmem, ⟨3, _⟩ => true
  | .vmem, ⟨4, _⟩ => true
  | .vmem, ⟨5, _⟩ => true
  | .vmem, ⟨6, _⟩ => true
  | .vmem, ⟨7, _⟩ => true
  | .vmem, ⟨8, _⟩ => true
  | .vmem, ⟨9, _⟩ => true
  | .vmem, ⟨10, _⟩ => true
  | .vmem, ⟨11, _⟩ => true
  | _, _ => false

abbrev semScoped : Fin 0 → Bool
  | ⟨_, h⟩ => absurd h (Nat.not_lt_zero _)

abbrev dmaSemScoped : Fin 12 → Bool
  | ⟨0, _⟩ => true
  | ⟨1, _⟩ => true
  | ⟨2, _⟩ => true
  | ⟨3, _⟩ => true
  | ⟨4, _⟩ => true
  | ⟨5, _⟩ => true
  | ⟨6, _⟩ => true
  | ⟨7, _⟩ => true
  | ⟨8, _⟩ => true
  | ⟨9, _⟩ => true
  | ⟨10, _⟩ => true
  | ⟨11, _⟩ => true
  | _ => false

abbrev sig : RefSig :=
  ofTc nBuf bufTy 0 12 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_cst : Ref sig .tc := ⟨.hbm, 6, rfl⟩
abbrev main_v1 : Ref sig .tc := ⟨.hbm, 7, rfl⟩
abbrev main_v2 : Ref sig .tc := ⟨.hbm, 8, rfl⟩
abbrev main_cst_0 : Ref sig .tc := ⟨.hbm, 9, rfl⟩
abbrev main_v3 : Ref sig .tc := ⟨.hbm, 10, rfl⟩
abbrev main_v4 : Ref sig .tc := ⟨.hbm, 11, rfl⟩
abbrev main_v5 : Ref sig .tc := ⟨.hbm, 12, rfl⟩
abbrev main_v6 : Ref sig .tc := ⟨.hbm, 13, rfl⟩
abbrev main_v7 : Ref sig .tc := ⟨.hbm, 14, rfl⟩
abbrev main_v8 : Ref sig .tc := ⟨.hbm, 15, rfl⟩
abbrev main_v9 : Ref sig .tc := ⟨.hbm, 16, rfl⟩
abbrev main_v10 : Ref sig .tc := ⟨.hbm, 17, rfl⟩
abbrev main_v11 : Ref sig .tc := ⟨.hbm, 18, rfl⟩
abbrev main_v12 : Ref sig .tc := ⟨.hbm, 19, rfl⟩
abbrev main_v13 : Ref sig .tc := ⟨.hbm, 20, rfl⟩
abbrev main_v14 : Ref sig .tc := ⟨.hbm, 21, rfl⟩
abbrev main_v15 : Ref sig .tc := ⟨.hbm, 22, rfl⟩
abbrev main_v16 : Ref sig .tc := ⟨.hbm, 23, rfl⟩
abbrev main_v17 : Ref sig .tc := ⟨.hbm, 24, rfl⟩
abbrev main_v18 : Ref sig .tc := ⟨.hbm, 25, rfl⟩
abbrev cc0_stg0_0 : Ref sig .tc := ⟨.vmem, 0, rfl⟩
abbrev cc0_stg0_1 : Ref sig .tc := ⟨.vmem, 1, rfl⟩
abbrev cc0_stg1_0 : Ref sig .tc := ⟨.vmem, 2, rfl⟩
abbrev cc0_stg1_1 : Ref sig .tc := ⟨.vmem, 3, rfl⟩
abbrev cc0_stg2_0 : Ref sig .tc := ⟨.vmem, 4, rfl⟩
abbrev cc0_stg2_1 : Ref sig .tc := ⟨.vmem, 5, rfl⟩
abbrev cc0_stg3_0 : Ref sig .tc := ⟨.vmem, 6, rfl⟩
abbrev cc0_stg4_0 : Ref sig .tc := ⟨.vmem, 7, rfl⟩
abbrev cc0_stg5_0 : Ref sig .tc := ⟨.vmem, 8, rfl⟩
abbrev cc0_stg6_0 : Ref sig .tc := ⟨.vmem, 9, rfl⟩
abbrev cc0_stg7_0 : Ref sig .tc := ⟨.vmem, 10, rfl⟩
abbrev cc0_stg7_1 : Ref sig .tc := ⟨.vmem, 11, rfl⟩
abbrev cc0_sem0_0 : DmaSem sig := 0
abbrev cc0_sem0_1 : DmaSem sig := 1
abbrev cc0_sem1_0 : DmaSem sig := 2
abbrev cc0_sem1_1 : DmaSem sig := 3
abbrev cc0_sem2_0 : DmaSem sig := 4
abbrev cc0_sem2_1 : DmaSem sig := 5
abbrev cc0_sem3_0 : DmaSem sig := 6
abbrev cc0_sem4_0 : DmaSem sig := 7
abbrev cc0_sem5_0 : DmaSem sig := 8
abbrev cc0_sem6_0 : DmaSem sig := 9
abbrev cc0_sem7_0 : DmaSem sig := 10
abbrev cc0_sem7_1 : DmaSem sig := 11

abbrev nD : Nat := 1
abbrev τ : Topo := Topo.v7x

variable {F : FTy → Type} [FloatOps F]

abbrev grid0 : Pipeline.Grid := ⟨1, ![16], ![false]⟩

def cc0_transform_0 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_1 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_2 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

def cc0_transform_3 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_4 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_5 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_6 (i : grid0.Coords) : Fin 2 → Nat :=
  let arg0 : BitVec 32 := BitVec.ofNat 32 (i 0).val
  let c0_i32 : BitVec 32 := 0#32
  let c0_i32_0 : BitVec 32 := 0#32
  let c0_i32_1 : BitVec 32 := 0#32
  ![c0_i32.toNat, c0_i32_0.toNat]

def cc0_transform_7 (i : grid0.Coords) : Fin 2 → Nat :=
  let arg0 : BitVec 32 := BitVec.ofNat 32 (i 0).val
  let c0_i32 : BitVec 32 := 0#32
  let c0_i32_0 : BitVec 32 := 0#32
  ![arg0.toNat, c0_i32.toNat]

abbrev stage0_0 : Fin 2 → Memref sig .tc .vmem S512x1024 .f32 := fun | 0 => Memref.whole cc0_stg0_0 | 1 => Memref.whole cc0_stg0_1 | ⟨_ + 2, h⟩ => absurd h (Nat.not_lt.2 (Nat.le_add_left _ _))
abbrev sem0_0 : Fin 2 → DmaSem sig := fun | 0 => cc0_sem0_0 | 1 => cc0_sem0_1 | ⟨_ + 2, h⟩ => absurd h (Nat.not_lt.2 (Nat.le_add_left _ _))
abbrev reads0_0 : Fin grid0.rank → Bool := ![true]

abbrev stage0_1 : Fin 2 → Memref sig .tc .vmem S512x1024 .f32 := fun | 0 => Memref.whole cc0_stg1_0 | 1 => Memref.whole cc0_stg1_1 | ⟨_ + 2, h⟩ => absurd h (Nat.not_lt.2 (Nat.le_add_left _ _))
abbrev sem0_1 : Fin 2 → DmaSem sig := fun | 0 => cc0_sem1_0 | 1 => cc0_sem1_1 | ⟨_ + 2, h⟩ => absurd h (Nat.not_lt.2 (Nat.le_add_left _ _))
abbrev reads0_1 : Fin grid0.rank → Bool := ![true]

abbrev stage0_2 : Fin 2 → Memref sig .tc .vmem S512x1024 .f32 := fun | 0 => Memref.whole cc0_stg2_0 | 1 => Memref.whole cc0_stg2_1 | ⟨_ + 2, h⟩ => absurd h (Nat.not_lt.2 (Nat.le_add_left _ _))
abbrev sem0_2 : Fin 2 → DmaSem sig := fun | 0 => cc0_sem2_0 | 1 => cc0_sem2_1 | ⟨_ + 2, h⟩ => absurd h (Nat.not_lt.2 (Nat.le_add_left _ _))
abbrev reads0_2 : Fin grid0.rank → Bool := ![true]

abbrev stage0_3 : Fin 1 → Memref sig .tc .vmem S1024x1024 .bf16 := fun | 0 => Memref.whole cc0_stg3_0 | ⟨_ + 1, h⟩ => absurd h (Nat.not_lt.2 (Nat.le_add_left _ _))
abbrev sem0_3 : Fin 1 → DmaSem sig := fun | 0 => cc0_sem3_0 | ⟨_ + 1, h⟩ => absurd h (Nat.not_lt.2 (Nat.le_add_left _ _))
abbrev reads0_3 : Fin grid0.rank → Bool := ![false]

abbrev stage0_4 : Fin 1 → Memref sig .tc .vmem S1024x1024 .bf16 := fun | 0 => Memref.whole cc0_stg4_0 | ⟨_ + 1, h⟩ => absurd h (Nat.not_lt.2 (Nat.le_add_left _ _))
abbrev sem0_4 : Fin 1 → DmaSem sig := fun | 0 => cc0_sem4_0 | ⟨_ + 1, h⟩ => absurd h (Nat.not_lt.2 (Nat.le_add_left _ _))
abbrev reads0_4 : Fin grid0.rank → Bool := ![false]

abbrev stage0_5 : Fin 1 → Memref sig .tc .vmem S1024x1024 .bf16 := fun | 0 => Memref.whole cc0_stg5_0 | ⟨_ + 1, h⟩ => absurd h (Nat.not_lt.2 (Nat.le_add_left _ _))
abbrev sem0_5 : Fin 1 → DmaSem sig := fun | 0 => cc0_sem5_0 | ⟨_ + 1, h⟩ => absurd h (Nat.not_lt.2 (Nat.le_add_left _ _))
abbrev reads0_5 : Fin grid0.rank → Bool := ![false]

abbrev stage0_6 : Fin 1 → Memref sig .tc .vmem S1x1024 .f32 := fun | 0 => Memref.whole cc0_stg6_0 | ⟨_ + 1, h⟩ => absurd h (Nat.not_lt.2 (Nat.le_add_left _ _))
abbrev sem0_6 : Fin 1 → DmaSem sig := fun | 0 => cc0_sem6_0 | ⟨_ + 1, h⟩ => absurd h (Nat.not_lt.2 (Nat.le_add_left _ _))
abbrev reads0_6 : Fin grid0.rank → Bool := ![false]

abbrev stage0_7 : Fin 2 → Memref sig .tc .vmem S512x1024 .f32 := fun | 0 => Memref.whole cc0_stg7_0 | 1 => Memref.whole cc0_stg7_1 | ⟨_ + 2, h⟩ => absurd h (Nat.not_lt.2 (Nat.le_add_left _ _))
abbrev sem0_7 : Fin 2 → DmaSem sig := fun | 0 => cc0_sem7_0 | 1 => cc0_sem7_1 | ⟨_ + 2, h⟩ => absurd h (Nat.not_lt.2 (Nat.le_add_left _ _))
abbrev reads0_7 : Fin grid0.rank → Bool := ![true]

class Facts₀ : Prop where
  shapeCasts_S16384x3072_S1024x16x3072 : S16384x3072.ShapeCasts S1024x16x3072
  reducesTo_S1024x16x3072_S1024x3072_d1 : S1024x16x3072.ReducesTo [1] S1024x3072
  h_S_ : 0 < S_.numel
  shapeCasts_S16384_S1024x16 : S16384.ShapeCasts S1024x16
  reducesTo_S1024x16_S1024_d1 : S1024x16.ReducesTo [1] S1024
  slices_S1024x3072_S1024x1024_0_0 : S1024x3072.Slices ![0, 0] S1024x1024
  transposes_S1024x1024_S1024x1024_1_0 : S1024x1024.Transposes [1, 0] S1024x1024
  bitsLt_bf16_f32 : FTy.bits .bf16 < FTy.bits .f32
  slices_S1024x3072_S1024x1024_0_1024 : S1024x3072.Slices ![0, 1024] S1024x1024
  slices_S1024x3072_S1024x1024_0_2048 : S1024x3072.Slices ![0, 2048] S1024x1024
  shapeCasts_S1024_S1x1024 : S1024.ShapeCasts S1x1024
  shapeCasts_S4x2048x1024_S8192x1024 : S4x2048x1024.ShapeCasts S8192x1024
  inb_S512x1024_S512x1024_0_0 : ∀ a, (![0, 0] : Fin 2 → Nat) a + S512x1024.size a ≤ S512x1024.size a
  h_S512x1024 : 0 < S512x1024.numel
  shapeCasts_S512x1024_S512x1024 : S512x1024.ShapeCasts S512x1024
  inb_S1024x1024_S1024x1024_0_0 : ∀ a, (![0, 0] : Fin 2 → Nat) a + S1024x1024.size a ≤ S1024x1024.size a
  h_S1024x1024 : 0 < S1024x1024.numel
  shapeCasts_S1024x1024_S1024x1024 : S1024x1024.ShapeCasts S1024x1024
  inb_S1x1024_S1x1024_0_0 : ∀ a, (![0, 0] : Fin 2 → Nat) a + S1x1024.size a ≤ S1x1024.size a
  h_S1x1024 : 0 < S1x1024.numel
  shapeCasts_S1x1024_S1x1024 : S1x1024.ShapeCasts S1x1024
  broadcasts_S1x1024_S512x1024 : S1x1024.Broadcasts S512x1024
  shapeCasts_S8192x1024_S4x2048x1024 : S8192x1024.ShapeCasts S4x2048x1024
  dot_S512x1024_S1024x1024_S512x1024_1_0_0_1_n_n_wf : DotDims.WF S512x1024 S1024x1024 S512x1024 [1] [0] [0] [1] [] []
  hrank0 : 0 < grid0.rank
  hstage0_0 : ∀ j, (stage0_0 j).IsWhole
  nbuf0_0 : grid0.bufCount reads0_0 false = 2
  hreads0_0 : ∀ i i' : grid0.Coords, (∀ a, reads0_0 a = true → i a = i' a) → cc0_transform_0 i = cc0_transform_0 i'
  hinb0_0 : ∀ (i : grid0.Coords) a, (cc0_transform_0 i a + 1) * S512x1024.size a ≤ S8192x1024.size a
  hwx0_0 : ∀ i : grid0.Coords, EltTy.bits .f32 = 32 ∨ (Rect.block (s := S8192x1024) S512x1024.size (cc0_transform_0 i) (hinb0_0 i)).WholeWords (EltTy.packing .f32)
  hstage0_1 : ∀ j, (stage0_1 j).IsWhole
  nbuf0_1 : grid0.bufCount reads0_1 false = 2
  hreads0_1 : ∀ i i' : grid0.Coords, (∀ a, reads0_1 a = true → i a = i' a) → cc0_transform_1 i = cc0_transform_1 i'
  hinb0_1 : ∀ (i : grid0.Coords) a, (cc0_transform_1 i a + 1) * S512x1024.size a ≤ S8192x1024.size a
  hwx0_1 : ∀ i : grid0.Coords, EltTy.bits .f32 = 32 ∨ (Rect.block (s := S8192x1024) S512x1024.size (cc0_transform_1 i) (hinb0_1 i)).WholeWords (EltTy.packing .f32)
  hstage0_2 : ∀ j, (stage0_2 j).IsWhole
  nbuf0_2 : grid0.bufCount reads0_2 false = 2
  hreads0_2 : ∀ i i' : grid0.Coords, (∀ a, reads0_2 a = true → i a = i' a) → cc0_transform_2 i = cc0_transform_2 i'
  hinb0_2 : ∀ (i : grid0.Coords) a, (cc0_transform_2 i a + 1) * S512x1024.size a ≤ S8192x1024.size a
  hwx0_2 : ∀ i : grid0.Coords, EltTy.bits .f32 = 32 ∨ (Rect.block (s := S8192x1024) S512x1024.size (cc0_transform_2 i) (hinb0_2 i)).WholeWords (EltTy.packing .f32)
  hstage0_3 : ∀ j, (stage0_3 j).IsWhole
  nbuf0_3 : grid0.bufCount reads0_3 true = 1
  hreads0_3 : ∀ i i' : grid0.Coords, (∀ a, reads0_3 a = true → i a = i' a) → cc0_transform_3 i = cc0_transform_3 i'
  hinb0_3 : ∀ (i : grid0.Coords) a, (cc0_transform_3 i a + 1) * S1024x1024.size a ≤ S1024x1024.size a
  hwx0_3 : ∀ i : grid0.Coords, EltTy.bits .bf16 = 32 ∨ (Rect.block (s := S1024x1024) S1024x1024.size (cc0_transform_3 i) (hinb0_3 i)).WholeWords (EltTy.packing .bf16)
  hstage0_4 : ∀ j, (stage0_4 j).IsWhole
  nbuf0_4 : grid0.bufCount reads0_4 true = 1
  hreads0_4 : ∀ i i' : grid0.Coords, (∀ a, reads0_4 a = true → i a = i' a) → cc0_transform_4 i = cc0_transform_4 i'
  hinb0_4 : ∀ (i : grid0.Coords) a, (cc0_transform_4 i a + 1) * S1024x1024.size a ≤ S1024x1024.size a
  hwx0_4 : ∀ i : grid0.Coords, EltTy.bits .bf16 = 32 ∨ (Rect.block (s := S1024x1024) S1024x1024.size (cc0_transform_4 i) (hinb0_4 i)).WholeWords (EltTy.packing .bf16)
  hstage0_5 : ∀ j, (stage0_5 j).IsWhole
  nbuf0_5 : grid0.bufCount reads0_5 true = 1
  hreads0_5 : ∀ i i' : grid0.Coords, (∀ a, reads0_5 a = true → i a = i' a) → cc0_transform_5 i = cc0_transform_5 i'
  hinb0_5 : ∀ (i : grid0.Coords) a, (cc0_transform_5 i a + 1) * S1024x1024.size a ≤ S1024x1024.size a
  hwx0_5 : ∀ i : grid0.Coords, EltTy.bits .bf16 = 32 ∨ (Rect.block (s := S1024x1024) S1024x1024.size (cc0_transform_5 i) (hinb0_5 i)).WholeWords (EltTy.packing .bf16)
  hstage0_6 : ∀ j, (stage0_6 j).IsWhole
  nbuf0_6 : grid0.bufCount reads0_6 true = 1
  hreads0_6 : ∀ i i' : grid0.Coords, (∀ a, reads0_6 a = true → i a = i' a) → cc0_transform_6 i = cc0_transform_6 i'
  hinb0_6 : ∀ (i : grid0.Coords) a, (cc0_transform_6 i a + 1) * S1x1024.size a ≤ S1x1024.size a
  hwx0_6 : ∀ i : grid0.Coords, EltTy.bits .f32 = 32 ∨ (Rect.block (s := S1x1024) S1x1024.size (cc0_transform_6 i) (hinb0_6 i)).WholeWords (EltTy.packing .f32)
  hstage0_7 : ∀ j, (stage0_7 j).IsWhole
  nbuf0_7 : grid0.bufCount reads0_7 false = 2
  hreads0_7 : ∀ i i' : grid0.Coords, (∀ a, reads0_7 a = true → i a = i' a) → cc0_transform_7 i = cc0_transform_7 i'
  hinb0_7 : ∀ (i : grid0.Coords) a, (cc0_transform_7 i a + 1) * S512x1024.size a ≤ S8192x1024.size a
  hwx0_7 : ∀ i : grid0.Coords, EltTy.bits .f32 = 32 ∨ (Rect.block (s := S8192x1024) S512x1024.size (cc0_transform_7 i) (hinb0_7 i)).WholeWords (EltTy.packing .f32)

variable [Facts₀]

def dot_S512x1024_S1024x1024_S512x1024_1_0_0_1_n_n : DotDims S512x1024 S1024x1024 S512x1024 where
  lhsContracting := [1]
  rhsContracting := [0]
  lhsNonContracting := [0]
  rhsNonContracting := [1]
  lhsBatch := []
  rhsBatch := []
  wf := dot_S512x1024_S1024x1024_S512x1024_1_0_0_1_n_n_wf

abbrev win0_0 : Pipeline.Window sig grid0 :=
  Pipeline.Window.ofSpec (Memref.whole main_v14) S512x1024.size cc0_transform_0 reads0_0 false false 2 stage0_0 sem0_0
    hrank0 hreads0_0 hinb0_0 nbuf0_0 (Memref.isWhole_whole _) hwx0_0 hstage0_0

abbrev win0_1 : Pipeline.Window sig grid0 :=
  Pipeline.Window.ofSpec (Memref.whole main_v15) S512x1024.size cc0_transform_1 reads0_1 false false 2 stage0_1 sem0_1
    hrank0 hreads0_1 hinb0_1 nbuf0_1 (Memref.isWhole_whole _) hwx0_1 hstage0_1

abbrev win0_2 : Pipeline.Window sig grid0 :=
  Pipeline.Window.ofSpec (Memref.whole main_v16) S512x1024.size cc0_transform_2 reads0_2 false false 2 stage0_2 sem0_2
    hrank0 hreads0_2 hinb0_2 nbuf0_2 (Memref.isWhole_whole _) hwx0_2 hstage0_2

abbrev win0_3 : Pipeline.Window sig grid0 :=
  Pipeline.Window.ofSpec (Memref.whole main_v6) S1024x1024.size cc0_transform_3 reads0_3 false true 1 stage0_3 sem0_3
    hrank0 hreads0_3 hinb0_3 nbuf0_3 (Memref.isWhole_whole _) hwx0_3 hstage0_3

abbrev win0_4 : Pipeline.Window sig grid0 :=
  Pipeline.Window.ofSpec (Memref.whole main_v9) S1024x1024.size cc0_transform_4 reads0_4 false true 1 stage0_4 sem0_4
    hrank0 hreads0_4 hinb0_4 nbuf0_4 (Memref.isWhole_whole _) hwx0_4 hstage0_4

abbrev win0_5 : Pipeline.Window sig grid0 :=
  Pipeline.Window.ofSpec (Memref.whole main_v12) S1024x1024.size cc0_transform_5 reads0_5 false true 1 stage0_5 sem0_5
    hrank0 hreads0_5 hinb0_5 nbuf0_5 (Memref.isWhole_whole _) hwx0_5 hstage0_5

abbrev win0_6 : Pipeline.Window sig grid0 :=
  Pipeline.Window.ofSpec (Memref.whole main_v13) S1x1024.size cc0_transform_6 reads0_6 false true 1 stage0_6 sem0_6
    hrank0 hreads0_6 hinb0_6 nbuf0_6 (Memref.isWhole_whole _) hwx0_6 hstage0_6

abbrev win0_7 : Pipeline.Window sig grid0 :=
  Pipeline.Window.ofSpec (Memref.whole main_v17) S512x1024.size cc0_transform_7 reads0_7 true false 2 stage0_7 sem0_7
    hrank0 hreads0_7 hinb0_7 nbuf0_7 (Memref.isWhole_whole _) hwx0_7 hstage0_7

abbrev win0 : Fin 8 → Pipeline.Window sig grid0 := fun | 0 => win0_0 | 1 => win0_1 | 2 => win0_2 | 3 => win0_3 | 4 => win0_4 | 5 => win0_5 | 6 => win0_6 | 7 => win0_7 | ⟨_ + 8, h⟩ => absurd h (Nat.not_lt.2 (Nat.le_add_left _ _))
abbrev spec0 : Fin 8 → Pipeline.WinSpec sig grid0.rank := fun w => (win0 w).toWinSpec

class Facts : Prop extends Facts₀ where

variable [Facts]
-- ==== ReferenceIdeal.lean ====
abbrev S4x2048x1024 : Shape := ⟨3, ![4, 2048, 1024]⟩
abbrev S16384x3072 : Shape := ⟨2, ![16384, 3072]⟩
abbrev S16384 : Shape := ⟨1, ![16384]⟩
abbrev S4x2048x3072 : Shape := ⟨3, ![4, 2048, 3072]⟩
abbrev S4x2048x16384 : Shape := ⟨3, ![4, 2048, 16384]⟩
abbrev S1x1x16384 : Shape := ⟨3, ![1, 1, 16384]⟩
abbrev S4x2048x1024x16 : Shape := ⟨4, ![4, 2048, 1024, 16]⟩
abbrev S_ : Shape := ⟨0, ![]⟩

abbrev nBuf : Space → Nat
  | .hbm => 15
  | .vmem => 0
  | .smem => 0
  | _ => 0

abbrev bufTy : (tb : Table) → Fin (tcTables nBuf tb) → BufTy
  | .hbm, ⟨0, _⟩ => ⟨S4x2048x1024, .f32⟩
  | .hbm, ⟨1, _⟩ => ⟨S4x2048x1024, .f32⟩
  | .hbm, ⟨2, _⟩ => ⟨S4x2048x1024, .f32⟩
  | .hbm, ⟨3, _⟩ => ⟨S16384x3072, .f32⟩
  | .hbm, ⟨4, _⟩ => ⟨S16384, .f32⟩
  | .hbm, ⟨5, _⟩ => ⟨S4x2048x3072, .f32⟩
  | .hbm, ⟨6, _⟩ => ⟨S4x2048x16384, .f32⟩
  | .hbm, ⟨7, _⟩ => ⟨S1x1x16384, .f32⟩
  | .hbm, ⟨8, _⟩ => ⟨S4x2048x16384, .f32⟩
  | .hbm, ⟨9, _⟩ => ⟨S4x2048x16384, .f32⟩
  | .hbm, ⟨10, _⟩ => ⟨S4x2048x1024x16, .f32⟩
  | .hbm, ⟨11, _⟩ => ⟨S_, .f32⟩
  | .hbm, ⟨12, _⟩ => ⟨S4x2048x1024, .f32⟩
  | .hbm, ⟨13, _⟩ => ⟨S4x2048x1024, .f32⟩
  | .hbm, ⟨14, _⟩ => ⟨S4x2048x1024, .f32⟩
  | _, _ => ⟨S4x2048x1024, .f32⟩

abbrev bufScoped : (cs : CoreSpace) → Fin (nBuf (.core cs)) → Bool
  | _, _ => false

abbrev semScoped : Fin 0 → Bool
  | ⟨_, h⟩ => absurd h (Nat.not_lt_zero _)

abbrev dmaSemScoped : Fin 0 → Bool
  | ⟨_, h⟩ => absurd h (Nat.not_lt_zero _)

abbrev sig : RefSig :=
  ofTc nBuf bufTy 0 0 bufScoped semScoped dmaSemScoped tileCredit tileCredit_eq_zero tileCredit_pos

abbrev main_arg0 : Ref sig .tc := ⟨.hbm, 0, rfl⟩
abbrev main_arg1 : Ref sig .tc := ⟨.hbm, 1, rfl⟩
abbrev main_arg2 : Ref sig .tc := ⟨.hbm, 2, rfl⟩
abbrev main_arg3 : Ref sig .tc := ⟨.hbm, 3, rfl⟩
abbrev main_arg4 : Ref sig .tc := ⟨.hbm, 4, rfl⟩
abbrev main_v0 : Ref sig .tc := ⟨.hbm, 5, rfl⟩
abbrev main_v1 : Ref sig .tc := ⟨.hbm, 6, rfl⟩
abbrev main_v2 : Ref sig .tc := ⟨.hbm, 7, rfl⟩
abbrev main_v3 : Ref sig .tc := ⟨.hbm, 8, rfl⟩
abbrev main_v4 : Ref sig .tc := ⟨.hbm, 9, rfl⟩
abbrev main_v5 : Ref sig .tc := ⟨.hbm, 10, rfl⟩
abbrev main_cst : Ref sig .tc := ⟨.hbm, 11, rfl⟩
abbrev main_v6 : Ref sig .tc := ⟨.hbm, 12, rfl⟩
abbrev main_v7 : Ref sig .tc := ⟨.hbm, 13, rfl⟩
abbrev main_v8 : Ref sig .tc := ⟨.hbm, 14, rfl⟩

abbrev nD : Nat := 1
abbrev τ : Topo := Topo.v7x

variable {F : FTy → Type} [FloatOps F]

class Facts₀ : Prop where
  concatenates_S4x2048x1024_S4x2048x1024_S4x2048x1024_S4x2048x3072_d2 : Shape.Concatenates [S4x2048x1024, S4x2048x1024, S4x2048x1024] S4x2048x3072 2
  bcast_S16384_S1x1x16384_2 : S16384.BroadcastsInDim S1x1x16384 (![2] : Fin 1 → Fin S1x1x16384.rank)
  bcast_S1x1x16384_S4x2048x16384_0_1_2 : S1x1x16384.BroadcastsInDim S4x2048x16384 (![0, 1, 2] : Fin 3 → Fin S4x2048x16384.rank)
  shapeCasts_S4x2048x16384_S4x2048x1024x16 : S4x2048x16384.ShapeCasts S4x2048x1024x16
  reducesTo_S4x2048x1024x16_S4x2048x1024_d3 : S4x2048x1024x16.ReducesTo [3] S4x2048x1024
  h_S_ : 0 < S_.numel
  dot_S4x2048x3072_S16384x3072_S4x2048x16384_2_1_01_0_n_n_wf : DotDims.WF S4x2048x3072 S16384x3072 S4x2048x16384 [2] [1] [0, 1] [0] [] []

variable [Facts₀]

def dot_S4x2048x3072_S16384x3072_S4x2048x16384_2_1_01_0_n_n : DotDims S4x2048x3072 S16384x3072 S4x2048x16384 where
  lhsContracting := [2]
  rhsContracting := [1]
  lhsNonContracting := [0, 1]
  rhsNonContracting := [0]
  lhsBatch := []
  rhsBatch := []
  wf := dot_S4x2048x3072_S16384x3072_S4x2048x16384_2_1_01_0_n_n_wf

class Facts : Prop extends Facts₀ where

variable [Facts]
-- ==== Proof.Spec.lean ====
/-
  The common value of the two programs, and the law that joins them.

  Inputs: x, y, z : [4, 2048, 1024], W : [16384, 3072], b : [16384].  Write row (d, k) of W for row 16·d + k, and
  column (s, c) for column 1024·s + c (s = 0, 1, 2: the part of a concatenated row that comes from x, y, z).

  The reference computes, at (n, l, d),
      ( 0 + ∑ k<16, ( (∑ c, x[n,l,c]·W[(d,k),(0,c)] + ∑ c, y[n,l,c]·W[(d,k),(1,c)]) + ∑ c, z[n,l,c]·W[(d,k),(2,c)] + b[(d,k)] ) )
        · (x[n,l,d]·y[n,l,d])
  (`refAt`: the contraction over the 3072 concatenated columns already split into its three runs of 1024), and the
  kernel, which sums W and b over k first,
      ( ((∑ c, x[n,l,c]·(0 + ∑ k, W[(d,k),(0,c)]) + ∑ c, y[n,l,c]·(0 + ∑ k, W[(d,k),(1,c)])) + ∑ c, z[n,l,c]·(0 + ∑ k, W[(d,k),(2,c)]))
        + (0 + ∑ k, b[(d,k)]) ) · (x[n,l,d]·y[n,l,d])
  (`kerAt`).  Moving the sum over k inside the products is distributivity, which on the extended reals holds for
  finite entries only: the law is proved for arrays of real numbers (`refAt_eq_kerAt`).
-/
import Idealize.ShloMosaic.PureOps.Ideal.Laws
import Idealize.ShloMosaic.Lib.ValueIdx

noncomputable section

open scoped BigOperators
open Idealize.ShloMosaic Idealize.ShloMosaic.ValueIdx

namespace Cert.Spec

abbrev SX : Shape := ⟨3, ![4, 2048, 1024]⟩
abbrev SW : Shape := ⟨2, ![16384, 3072]⟩
abbrev SB : Shape := ⟨1, ![16384]⟩

/-- Row 16·d + k of the weight matrix (and entry 16·d + k of the bias). -/
def wrow (d : Fin 1024) (k : Fin 16) : Fin 16384 := ⟨d.val * 16 + k.val, by have := d.isLt; have := k.isLt; omega⟩
/-- Column 1024·s + c of the weight matrix. -/
def wcol (s : Fin 3) (c : Fin 1024) : Fin 3072 := ⟨s.val * 1024 + c.val, by have := s.isLt; have := c.isLt; omega⟩

@[simp] theorem wrow_val (d : Fin 1024) (k : Fin 16) : (wrow d k).val = d.val * 16 + k.val := rfl
@[simp] theorem wcol_val (s : Fin 3) (c : Fin 1024) : (wcol s c).val = s.val * 1024 + c.val := rfl

/-- The reference's value at (n, l, d). -/
def refAt (x y z : SX.Idx → EReal) (W : SW.Idx → EReal) (b : SB.Idx → EReal) (n : Fin 4) (l : Fin 2048) (d : Fin 1024) : EReal :=
  (0 + ∑ k : Fin 16,
      ((((∑ c : Fin 1024, x (ix3 n l c) * W (ix2 (wrow d k) (wcol 0 c)))
          + ∑ c : Fin 1024, y (ix3 n l c) * W (ix2 (wrow d k) (wcol 1 c)))
          + ∑ c : Fin 1024, z (ix3 n l c) * W (ix2 (wrow d k) (wcol 2 c)))
        + b (ix1 (wrow d k))))
    * (x (ix3 n l d) * y (ix3 n l d))

/-- The kernel's value at (n, l, d). -/
def kerAt (x y z : SX.Idx → EReal) (W : SW.Idx → EReal) (b : SB.Idx → EReal) (n : Fin 4) (l : Fin 2048) (d : Fin 1024) : EReal :=
  ((((∑ c : Fin 1024, x (ix3 n l c) * (0 + ∑ k : Fin 16, W (ix2 (wrow d k) (wcol 0 c))))
        + ∑ c : Fin 1024, y (ix3 n l c) * (0 + ∑ k : Fin 16, W (ix2 (wrow d k) (wcol 1 c))))
        + ∑ c : Fin 1024, z (ix3 n l c) * (0 + ∑ k : Fin 16, W (ix2 (wrow d k) (wcol 2 c))))
      + (0 + ∑ k : Fin 16, b (ix1 (wrow d k))))
    * (x (ix3 n l d) * y (ix3 n l d))

/-- The result array both programs end at, as a function of the argument arrays. -/
def G (x y z : SX.Idx → EReal) (W : SW.Idx → EReal) (b : SB.Idx → EReal) : SX.Idx → EReal :=
  fun i => kerAt x y z W b (i 0) (i 1) (i 2)

/-- A finite sum of real numbers, each read as an extended real, is their real sum read as one. -/
theorem coe_sum {ι : Type*} (s : Finset ι) (f : ι → ℝ) : (∑ i ∈ s, (f i : EReal)) = ((∑ i ∈ s, f i : ℝ) : EReal) := by
  classical
  induction s using Finset.induction_on with
  | empty => simp
  | insert a s ha ih => rw [Finset.sum_insert ha, Finset.sum_insert ha, ih, EReal.coe_add]

/-- The law over the reals: a sum over k of (three contractions plus a bias entry) is the three contractions against
    the k-summed weights plus the k-summed bias. -/
theorem real_law {K C : Type*} [Fintype K] [Fintype C] (x y z : C → ℝ) (wx wy wz : K → C → ℝ) (b : K → ℝ) :
    (∑ k, ((((∑ c, x c * wx k c) + ∑ c, y c * wy k c) + ∑ c, z c * wz k c) + b k))
      = (((∑ c, x c * ∑ k, wx k c) + ∑ c, y c * ∑ k, wy k c) + ∑ c, z c * ∑ k, wz k c) + ∑ k, b k := by
  simp only [Finset.sum_add_distrib, Finset.mul_sum]
  rw [Finset.sum_comm (f := fun k c => x c * wx k c), Finset.sum_comm (f := fun k c => y c * wy k c),
    Finset.sum_comm (f := fun k c => z c * wz k c)]

/-- On arrays of real numbers the reference's value is the kernel's. -/
theorem refAt_eq_kerAt (xr yr zr : SX.Idx → ℝ) (wr : SW.Idx → ℝ) (br : SB.Idx → ℝ) (n : Fin 4) (l : Fin 2048) (d : Fin 1024) :
    refAt (fun j => (xr j : EReal)) (fun j => (yr j : EReal)) (fun j => (zr j : EReal)) (fun j => (wr j : EReal)) (fun j => (br j : EReal)) n l d
      = kerAt (fun j => (xr j : EReal)) (fun j => (yr j : EReal)) (fun j => (zr j : EReal)) (fun j => (wr j : EReal)) (fun j => (br j : EReal)) n l d := by
  unfold refAt kerAt
  simp only [zero_add, ← EReal.coe_mul, coe_sum, ← EReal.coe_add]
  rw [real_law]

end Cert.Spec

end
-- ==== Proof.RefValue.lean ====
/-
  The reference's result read at an index.

  The reference concatenates a row of x, y, z into 3072 columns, contracts it with every row of W, adds b, regroups the
  16384 results as [1024, 16] (row 16·d + k ↦ (d, k)) and sums over k from zero, then multiplies by x·y.  Read at
  (n, l, d) — the reshape's index arithmetic done once (`idx56`), the concatenation read run by run (`cat0` … `cat2`)
  and the contraction over the 3072 columns split into its three runs of 1024 (`sum_cols`) — this is `Spec.refAt`.
-/
import proofs.«145534_j69303592288826_1_alg».proof.Proof.Gen.ReferenceIdeal.Run
import proofs.«145534_j69303592288826_1_alg».proof.Proof.Gen.ReferenceIdeal.Read
import proofs.«145534_j69303592288826_1_alg».proof.Proof.Spec

noncomputable section

open scoped BigOperators
open Idealize.ShloMosaic Idealize.ShloMosaic.ValueIdx

namespace Cert.ReferenceIdeal.RefValue

open Cert.ReferenceIdeal Cert.ReferenceIdeal.Read Cert.Spec

/-- The 3072 concatenated columns are the three runs of 1024: (s, c) ↦ 1024·s + c is a bijection. -/
def colEquiv : Fin 3 × Fin 1024 ≃ Fin 3072 where
  toFun p := wcol p.1 p.2
  invFun c := (⟨c.val / 1024, by have := c.isLt; omega⟩, ⟨c.val % 1024, Nat.mod_lt _ (by decide)⟩)
  left_inv p := by
    obtain ⟨s, c⟩ := p
    have hs := s.isLt; have hc := c.isLt
    refine Prod.ext (Fin.ext ?_) (Fin.ext ?_)
    · show (s.val * 1024 + c.val) / 1024 = s.val; omega
    · show (s.val * 1024 + c.val) % 1024 = c.val; omega
  right_inv c := Fin.ext (by show c.val / 1024 * 1024 + c.val % 1024 = c.val; omega)

/-- A sum over the concatenated columns, run by run. -/
theorem sum_cols {M : Type*} [AddCommMonoid M] (g : Fin 3072 → M) :
    ∑ c, g c = ((∑ c : Fin 1024, g (wcol 0 c)) + ∑ c : Fin 1024, g (wcol 1 c)) + ∑ c : Fin 1024, g (wcol 2 c) := by
  rw [← Equiv.sum_comp colEquiv g, Fintype.sum_prod_type, Fin.sum_univ_three]
  rfl

/-- The concatenation of a row of x, y, z read in run s at c is that input's row at c. -/
theorem cat0 (X Y Z : S4x2048x1024.Idx → EReal) (n : Fin 4) (l : Fin 2048) (c : Fin 1024) :
    val_main_v0 (F := Ideal) X Y Z (ix3 n l (wcol 0 c)) = X (ix3 n l c) := by
  unfold val_main_v0
  refine concatenate_apply_piece (t := S4x2048x3072) (2 : Fin 3) [⟨S4x2048x1024, X⟩, ⟨S4x2048x1024, Y⟩, ⟨S4x2048x1024, Z⟩]
    Facts₀.concatenates_S4x2048x1024_S4x2048x1024_S4x2048x1024_S4x2048x3072_d2 (ix3 n l (wcol 0 c)) 0 ?_ S4x2048x1024 X rfl rfl 0 rfl (ix3 n l c) (fun b hb => ?_) ?_
  · exact Nat.zero_lt_succ _
  · match b with
    | ⟨0, _⟩ => rfl
    | ⟨1, _⟩ => rfl
    | ⟨2, _⟩ => exact absurd rfl hb
  · show 0 + c.val = 0 * 1024 + c.val
    omega

theorem cat1 (X Y Z : S4x2048x1024.Idx → EReal) (n : Fin 4) (l : Fin 2048) (c : Fin 1024) :
    val_main_v0 (F := Ideal) X Y Z (ix3 n l (wcol 1 c)) = Y (ix3 n l c) := by
  unfold val_main_v0
  refine concatenate_apply_piece (t := S4x2048x3072) (2 : Fin 3) [⟨S4x2048x1024, X⟩, ⟨S4x2048x1024, Y⟩, ⟨S4x2048x1024, Z⟩]
    Facts₀.concatenates_S4x2048x1024_S4x2048x1024_S4x2048x1024_S4x2048x3072_d2 (ix3 n l (wcol 1 c)) 1 ?_ S4x2048x1024 Y rfl rfl 1024 rfl (ix3 n l c) (fun b hb => ?_) ?_
  · show 1 < 3; decide
  · match b with
    | ⟨0, _⟩ => rfl
    | ⟨1, _⟩ => rfl
    | ⟨2, _⟩ => exact absurd rfl hb
  · show 1024 + c.val = 1 * 1024 + c.val
    omega

theorem cat2 (X Y Z : S4x2048x1024.Idx → EReal) (n : Fin 4) (l : Fin 2048) (c : Fin 1024) :
    val_main_v0 (F := Ideal) X Y Z (ix3 n l (wcol 2 c)) = Z (ix3 n l c) := by
  unfold val_main_v0
  refine concatenate_apply_piece (t := S4x2048x3072) (2 : Fin 3) [⟨S4x2048x1024, X⟩, ⟨S4x2048x1024, Y⟩, ⟨S4x2048x1024, Z⟩]
    Facts₀.concatenates_S4x2048x1024_S4x2048x1024_S4x2048x1024_S4x2048x3072_d2 (ix3 n l (wcol 2 c)) 2 ?_ S4x2048x1024 Z rfl rfl 2048 rfl (ix3 n l c) (fun b hb => ?_) ?_
  · show 2 < 3; decide
  · match b with
    | ⟨0, _⟩ => rfl
    | ⟨1, _⟩ => rfl
    | ⟨2, _⟩ => exact absurd rfl hb
  · show 2048 + c.val = 2 * 1024 + c.val
    omega

/-- Row 16·d + k of the product-plus-bias, read through the reshape and the reduction's index. -/
theorem idx56 (n : Fin 4) (l : Fin 2048) (d : Fin 1024) (k : Fin 16) :
    idx_main_v5 (idx_main_v6 (ix3 n l d) k) = ix3 n l (wrow d k) := by
  have hn := n.isLt; have hl := l.isLt; have hd := d.isLt; have hk := k.isLt
  funext a; apply Fin.ext
  match a with
  | ⟨0, _⟩ => show (((n.val * 2048 + l.val) * 1024 + d.val) * 16 + k.val) / 33554432 = n.val; omega
  | ⟨1, _⟩ => show (((n.val * 2048 + l.val) * 1024 + d.val) * 16 + k.val) / 16384 % 2048 = l.val; omega
  | ⟨2, _⟩ => show (((n.val * 2048 + l.val) * 1024 + d.val) * 16 + k.val) % 16384 = d.val * 16 + k.val; omega

theorem lidx_eq (n : Fin 4) (l : Fin 2048) (f : Fin 16384) (c : Fin 3072) : lidx_main_v1 (ix3 n l f) c = ix3 n l c :=
  funext fun a => Fin.ext (by match a with | ⟨0, _⟩ => rfl | ⟨1, _⟩ => rfl | ⟨2, _⟩ => rfl)
theorem ridx_eq (n : Fin 4) (l : Fin 2048) (f : Fin 16384) (c : Fin 3072) : ridx_main_v1 (ix3 n l f) c = ix2 f c :=
  funext fun a => Fin.ext (by match a with | ⟨0, _⟩ => rfl | ⟨1, _⟩ => rfl)
theorem idx23_eq (n : Fin 4) (l : Fin 2048) (f : Fin 16384) : idx_main_v2 (idx_main_v3 (ix3 n l f)) = ix1 f :=
  funext fun a => Fin.ext (by match a with | ⟨0, _⟩ => rfl)

theorem ref_eq (X Y Z : S4x2048x1024.Idx → EReal) (W : S16384x3072.Idx → EReal) (B : S16384.Idx → EReal)
    (n : Fin 4) (l : Fin 2048) (d : Fin 1024) :
    val_main_v8 (F := Ideal) X Y Z W B (ix3 n l d) = refAt X Y Z W B n l d := by
  rw [val_main_v8_apply, val_main_v6_apply, val_main_v7_apply]
  simp only [val_main_v5_apply, idx56, val_main_v4_apply, val_main_v3_apply, val_main_v2_apply, idx23_eq, val_main_v1_apply,
    lidx_eq, ridx_eq, val_main_cst_apply, sum_cols, cat0, cat1, cat2]
  unfold refAt
  rw [show (FloatOps.ofBits (F := Ideal) FTy.f32 0#32 : EReal) = 0 from Ideal.ofBits_zero_f32]
  rfl

end Cert.ReferenceIdeal.RefValue

end
-- ==== Proof.LibPlainMatmul.lean ====
/-
  A plain matrix product read at an index, at the ideal values.

  For dimension numbers `d` over shapes [M, K] × [K, N] → [M, N] that contract the left operand's axis 1 with the right
  operand's axis 0 and keep the left rows and the right columns — stated here as the four facts about the record's index
  maps that say so, so that the lemma serves any record, whatever its generated name — the product accumulated into the
  zero splat, read at `(p, o)`, is `∑ k, A (p, k) · B (k, o)`: the library's sum over the record's contraction index set,
  re-indexed by that set's one coordinate.
-/
import Idealize.ShloMosaic.PureOps.Ideal.Laws
import Idealize.ShloMosaic.Lib.ValueIdx

noncomputable section

open scoped BigOperators
open Idealize.ShloMosaic Idealize.ShloMosaic.ValueIdx

namespace Cert.LibPlainMatmul

/-- `FloatOps.matmul d prec A B 0 (p, o) = ∑ k : Fin K, A (p, k) * B (k, o)` for a record `d` with one contracted axis of
    extent `K` whose left index at `(i, q)` is `(i 0, q)` and whose right index is `(q, i 1)` (`hl0`, `hl1`, `hr0`, `hr1`:
    for a generated record the first and last are a `dif_neg` / `dif_pos` on its literal axis lists, the middle two are
    `DotDims.lhsIdx_val_of_single` / `rhsIdx_val_of_single`). -/
theorem matmul_zero_apply {M K N : ℕ} {φ₁ φ₂ : FTy}
    (d : DotDims ⟨2, ![M, K]⟩ ⟨2, ![K, N]⟩ ⟨2, ![M, N]⟩) (prec : Option ContractPrecision)
    (hr : d.contr.rank = 1) (hs : d.contr.size ⟨0, by omega⟩ = K)
    (hl0 : ∀ (i : (⟨2, ![M, N]⟩ : Shape).Idx) (q : d.contr.Idx), (d.lhsIdx i q 0).val = (i 0).val)
    (hl1 : ∀ (i : (⟨2, ![M, N]⟩ : Shape).Idx) (q : d.contr.Idx), (d.lhsIdx i q 1).val = (q ⟨0, by omega⟩).val)
    (hr0 : ∀ (i : (⟨2, ![M, N]⟩ : Shape).Idx) (q : d.contr.Idx), (d.rhsIdx i q 0).val = (q ⟨0, by omega⟩).val)
    (hr1 : ∀ (i : (⟨2, ![M, N]⟩ : Shape).Idx) (q : d.contr.Idx), (d.rhsIdx i q 1).val = (i 1).val)
    (A : FVec Ideal ⟨2, ![M, K]⟩ φ₁) (B : FVec Ideal ⟨2, ![K, N]⟩ φ₂) (p : Fin M) (o : Fin N) :
    FloatOps.matmul d prec A B (constant (F := Ideal) ⟨2, ![M, N]⟩ .f32 0x00000000#32) (ix2 p o)
      = ∑ k : Fin K, A (ix2 p k) * B (ix2 k o) := by
  rw [Ideal.matmul_constant_zero_apply, ← Equiv.sum_comp (contrEquiv1 d K hr hs).symm]
  refine Finset.sum_congr rfl fun k _ => ?_
  have hk := contrEquiv1_symm_val d K hr hs k
  have el : d.lhsIdx (ix2 p o) ((contrEquiv1 d K hr hs).symm k) = ix2 p k := funext fun a => Fin.ext (by
    match a with
    | ⟨0, _⟩ => exact hl0 _ _
    | ⟨1, _⟩ => exact (hl1 _ _).trans hk)
  have er : d.rhsIdx (ix2 p o) ((contrEquiv1 d K hr hs).symm k) = ix2 k o := funext fun a => Fin.ext (by
    match a with
    | ⟨0, _⟩ => exact (hr0 _ _).trans hk
    | ⟨1, _⟩ => exact hr1 _ _)
  rw [el, er]

end Cert.LibPlainMatmul

end
-- ==== Proof.Payload.lean ====
/-
  The kernel body's stored value read at an index.

  The body loads a [512, 1024] block of each of x, y, z, the three [1024, 1024] weight matrices and the [1, 1024] bias
  row, and stores ((x·Wx + y·Wy) + z·Wz + bias) · (x · y), the three products accumulated from zero.  At the ideal
  values the narrowing of the blocks to bf16 is the identity and each product at (p, q) is the plain sum over the
  contracted index (`mm_apply`), so the stored value at (p, q) is `pay_apply`'s right-hand side.
-/
import proofs.«145534_j69303592288826_1_alg».proof.Proof.Gen.KernelIdeal.Skeleton
import proofs.«145534_j69303592288826_1_alg».proof.Proof.LibPlainMatmul
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Payload

open Cert.KernelIdeal Cert.KernelIdeal.Gen

theorem lhs_mm_0 (i : S512x1024.Idx) (q : dot_S512x1024_S1024x1024_S512x1024_1_0_0_1_n_n.contr.Idx) :
    (dot_S512x1024_S1024x1024_S512x1024_1_0_0_1_n_n.lhsIdx i q 0).val = (i 0).val := by
  unfold DotDims.lhsIdx
  rw [dif_neg (show ¬(0 : Fin S512x1024.rank) ∈ dot_S512x1024_S1024x1024_S512x1024_1_0_0_1_n_n.lhsBatch by decide), dif_pos (show (0 : Fin S512x1024.rank) ∈ dot_S512x1024_S1024x1024_S512x1024_1_0_0_1_n_n.lhsNonContracting by decide)]
  rfl
theorem lhs_mm_1 (i : S512x1024.Idx) (q : dot_S512x1024_S1024x1024_S512x1024_1_0_0_1_n_n.contr.Idx) :
    (dot_S512x1024_S1024x1024_S512x1024_1_0_0_1_n_n.lhsIdx i q 1).val = (q ⟨0, by decide⟩).val :=
  dot_S512x1024_S1024x1024_S512x1024_1_0_0_1_n_n.lhsIdx_val_of_single rfl i q
theorem rhs_mm_0 (i : S512x1024.Idx) (q : dot_S512x1024_S1024x1024_S512x1024_1_0_0_1_n_n.contr.Idx) :
    (dot_S512x1024_S1024x1024_S512x1024_1_0_0_1_n_n.rhsIdx i q 0).val = (q ⟨0, by decide⟩).val :=
  dot_S512x1024_S1024x1024_S512x1024_1_0_0_1_n_n.rhsIdx_val_of_single rfl i q
theorem rhs_mm_1 (i : S512x1024.Idx) (q : dot_S512x1024_S1024x1024_S512x1024_1_0_0_1_n_n.contr.Idx) :
    (dot_S512x1024_S1024x1024_S512x1024_1_0_0_1_n_n.rhsIdx i q 1).val = (i 1).val := by
  unfold DotDims.rhsIdx
  rw [dif_neg (show ¬(1 : Fin S1024x1024.rank) ∈ dot_S512x1024_S1024x1024_S512x1024_1_0_0_1_n_n.rhsBatch by decide), dif_pos (show (1 : Fin S1024x1024.rank) ∈ dot_S512x1024_S1024x1024_S512x1024_1_0_0_1_n_n.rhsNonContracting by decide)]
  rfl

/-- The body's product of a [512, 1024] block with a [1024, 1024] matrix, accumulated from zero, at (p, q). -/
theorem mm_apply (A : FVec Ideal S512x1024 .bf16) (B : FVec Ideal S1024x1024 .bf16) (p : Fin 512) (q : Fin 1024) :
    matmul dot_S512x1024_S1024x1024_S512x1024_1_0_0_1_n_n none A B (constant (F := Ideal) S512x1024 .f32 0x00000000#32) (ix2 p q)
      = ∑ c : Fin 1024, A (ix2 p c) * B (ix2 c q) :=
  Cert.LibPlainMatmul.matmul_zero_apply dot_S512x1024_S1024x1024_S512x1024_1_0_0_1_n_n none rfl rfl
    lhs_mm_0 lhs_mm_1 rhs_mm_0 rhs_mm_1 A B p q

/-- The stored value at (p, q), from the loaded blocks. -/
theorem pay_apply (x0 x1 x2 : Vec Ideal S512x1024 .f32) (x3 x4 x5 : Vec Ideal S1024x1024 .bf16) (x6 : Vec Ideal S1x1024 .f32)
    (p : Fin 512) (q : Fin 1024) :
    k0_pay1 x0 x1 x2 x3 x4 x5 x6 (ix2 p q)
      = ((((∑ c : Fin 1024, x0 (ix2 p c) * x3 (ix2 c q)) + ∑ c : Fin 1024, x1 (ix2 p c) * x4 (ix2 c q))
          + ∑ c : Fin 1024, x2 (ix2 p c) * x5 (ix2 c q)) + x6 (ix2 (0 : Fin 1) q)) * (x0 (ix2 p q) * x1 (ix2 p q)) := by
  unfold k0_pay1
  simp only [shapeCast_self]
  rw [mulf_apply, mulf_apply, addf_apply, addf_apply, addf_apply, mm_apply, mm_apply, mm_apply, broadcastTo_1b_ab_apply]
  rfl

end Cert.KernelIdeal.Payload

end
-- ==== Proof.WeightSums.lean ====
/-
  The host operations before the call, read at an index.

  Before the call the host regroups W's 16384 rows as (d, k) = [1024, 16] and sums over k from zero (`wsum`: [1024, 3072]),
  cuts the three runs of 1024 columns, transposes each and narrows it to bf16 (the identity at the ideal values): the
  weight matrix of run s at (c, d) is `0 + ∑ k, W[16·d + k, 1024·s + c]`.  It sums b the same way (`bsum`) and makes it
  a [1, 1024] row, and it flattens x, y, z to [8192, 1024]: row 2048·n + l is row (n, l).
-/
import proofs.«145534_j69303592288826_1_alg».proof.Proof.Gen.KernelIdeal
import proofs.«145534_j69303592288826_1_alg».proof.Proof.Spec
import Idealize.ShloMosaic.Lib.Pipeline.Value
import Idealize.ShloMosaic.Lib.ValueIdx
import Idealize.ShloMosaic.Lib.ValueLayout
import Idealize.ShloMosaic.PureOps.Ideal.Laws

noncomputable section

open scoped BigOperators
open Idealize.ShloMosaic Idealize.ShloMosaic.ValueIdx

namespace Cert.KernelIdeal.Prefix

open Cert.KernelIdeal Cert.KernelIdeal.Gen Cert.Spec

/-- W with its rows regrouped as (d, k) and summed over k from zero: [1024, 3072]. -/
def wsum (W : S16384x3072.Idx → EReal) : S1024x3072.Idx → EReal :=
  Host.reduceAdd (F := Ideal) (shapeCast S1024x16x3072 W shapeCasts_S16384x3072_S1024x16x3072)
    (constant (F := Ideal) S_ .f32 0x00000000#32) reducesTo_S1024x16x3072_S1024x3072_d1 h_S_

/-- b regrouped as (d, k) and summed over k from zero: [1024]. -/
def bsum (B : S16384.Idx → EReal) : S1024.Idx → EReal :=
  Host.reduceAdd (F := Ideal) (shapeCast S1024x16 B shapeCasts_S16384_S1024x16)
    (constant (F := Ideal) S_ .f32 0x00000000#32) reducesTo_S1024x16_S1024_d1 h_S_

/-- Row 2048·n + l of an input flattened to [8192, 1024]. -/
def mrow (n : Fin 4) (l : Fin 2048) : Fin 8192 := ⟨n.val * 2048 + l.val, by have := n.isLt; have := l.isLt; omega⟩

theorem wsum_apply (W : S16384x3072.Idx → EReal) (d : Fin 1024) (cc : Fin 3072) :
    wsum W (ix2 d cc) = 0 + ∑ k : Fin 16, W (ix2 (wrow d k) cc) := by
  unfold wsum
  simp only [Host.reduceAdd, Ideal.hostReduceAdd_def]
  rw [Ideal.hostReduceAdd_single reducesTo_S1024x16x3072_S1024x3072_d1 (by decide)]
  refine congrArg₂ (· + ·) Ideal.ofBits_zero_f32 (Finset.sum_congr rfl fun k _ => ?_)
  exact shapeCast_apply W _ _ (ix2 (wrow d k) cc) (by
    rw [Shape.rowMajor_val_two, Shape.rowMajor_val_three]
    show (d.val * 16 + k.val) * 3072 + cc.val = (d.val * 16 + k.val) * 3072 + cc.val
    rfl)

theorem bsum_apply (B : S16384.Idx → EReal) (d : Fin 1024) :
    bsum B (ix1 d) = 0 + ∑ k : Fin 16, B (ix1 (wrow d k)) := by
  unfold bsum
  simp only [Host.reduceAdd, Ideal.hostReduceAdd_def]
  rw [Ideal.hostReduceAdd_single reducesTo_S1024x16_S1024_d1 (by decide)]
  refine congrArg₂ (· + ·) Ideal.ofBits_zero_f32 (Finset.sum_congr rfl fun k _ => ?_)
  exact shapeCast_apply B _ _ (ix1 (wrow d k)) (by
    rw [Shape.rowMajor_val_one, Shape.rowMajor_val_two]
    show d.val * 16 + k.val = d.val * 16 + k.val
    rfl)

/-- The weight matrix of run 0: the k-summed W cut to columns 0 … 1023, transposed, narrowed to bf16. -/
def wmat0 (W : S16384x3072.Idx → EReal) : S1024x1024.Idx → EReal :=
  truncf (F := Ideal) (φ := .f32) .bf16 (transpose S1024x1024 [1, 0] (extractStridedSlice S1024x1024 ![0, 0] (wsum W) slices_S1024x3072_S1024x1024_0_0) transposes_S1024x1024_S1024x1024_1_0) bitsLt_bf16_f32

/-- It holds, at (c, d), the sum over k of W[16·d + k, 0 + c], from zero. -/
theorem wmat0_apply (W : S16384x3072.Idx → EReal) (cc d : Fin 1024) :
    wmat0 W (ix2 cc d) = 0 + ∑ k : Fin 16, W (ix2 (wrow d k) (wcol 0 cc)) := by
  unfold wmat0
  rw [truncf_apply, transpose_ix2_apply, slice2_axis1_apply 0 (wsum W) _ d cc (wcol 0 cc) (by show 0 * 1024 + cc.val = 0 + cc.val; omega), wsum_apply]

/-- The weight matrix of run 1: the k-summed W cut to columns 1024 … 2047, transposed, narrowed to bf16. -/
def wmat1 (W : S16384x3072.Idx → EReal) : S1024x1024.Idx → EReal :=
  truncf (F := Ideal) (φ := .f32) .bf16 (transpose S1024x1024 [1, 0] (extractStridedSlice S1024x1024 ![0, 1024] (wsum W) slices_S1024x3072_S1024x1024_0_1024) transposes_S1024x1024_S1024x1024_1_0) bitsLt_bf16_f32

/-- It holds, at (c, d), the sum over k of W[16·d + k, 1024 + c], from zero. -/
theorem wmat1_apply (W : S16384x3072.Idx → EReal) (cc d : Fin 1024) :
    wmat1 W (ix2 cc d) = 0 + ∑ k : Fin 16, W (ix2 (wrow d k) (wcol 1 cc)) := by
  unfold wmat1
  rw [truncf_apply, transpose_ix2_apply, slice2_axis1_apply 1024 (wsum W) _ d cc (wcol 1 cc) (by show 1 * 1024 + cc.val = 1024 + cc.val; omega), wsum_apply]

/-- The weight matrix of run 2: the k-summed W cut to columns 2048 … 3071, transposed, narrowed to bf16. -/
def wmat2 (W : S16384x3072.Idx → EReal) : S1024x1024.Idx → EReal :=
  truncf (F := Ideal) (φ := .f32) .bf16 (transpose S1024x1024 [1, 0] (extractStridedSlice S1024x1024 ![0, 2048] (wsum W) slices_S1024x3072_S1024x1024_0_2048) transposes_S1024x1024_S1024x1024_1_0) bitsLt_bf16_f32

/-- It holds, at (c, d), the sum over k of W[16·d + k, 2048 + c], from zero. -/
theorem wmat2_apply (W : S16384x3072.Idx → EReal) (cc d : Fin 1024) :
    wmat2 W (ix2 cc d) = 0 + ∑ k : Fin 16, W (ix2 (wrow d k) (wcol 2 cc)) := by
  unfold wmat2
  rw [truncf_apply, transpose_ix2_apply, slice2_axis1_apply 2048 (wsum W) _ d cc (wcol 2 cc) (by show 2 * 1024 + cc.val = 2048 + cc.val; omega), wsum_apply]

/-- The bias row: the k-summed b as [1, 1024]. -/
def biasRow (B : S16384.Idx → EReal) : S1x1024.Idx → EReal := shapeCast S1x1024 (bsum B) shapeCasts_S1024_S1x1024

theorem biasRow_apply (B : S16384.Idx → EReal) (d : Fin 1024) :
    biasRow B (ix2 (0 : Fin 1) d) = 0 + ∑ k : Fin 16, B (ix1 (wrow d k)) := by
  unfold biasRow
  rw [shapeCast_a_1a_apply, bsum_apply]

/-- An input flattened to [8192, 1024]. -/
def xflat (X : S4x2048x1024.Idx → EReal) : S8192x1024.Idx → EReal := shapeCast S8192x1024 X shapeCasts_S4x2048x1024_S8192x1024

/-- At (2048·n + l, c) it is the input at (n, l, c). -/
theorem xflat_apply (X : S4x2048x1024.Idx → EReal) (n : Fin 4) (l : Fin 2048) (cc : Fin 1024) :
    xflat X (ix2 (mrow n l) cc) = X (ix3 n l cc) :=
  shapeCast_apply X _ _ (ix3 n l cc) (by
    rw [Shape.rowMajor_val_two, Shape.rowMajor_val_three]
    show (n.val * 2048 + l.val) * 1024 + cc.val = (n.val * 2048 + l.val) * 1024 + cc.val
    rfl)

/-- The call's [8192, 1024] result as one function of the arrays its windows read: at (r, q),
    ((A0[r,:]·A3[:,q] + A1[r,:]·A4[:,q]) + A2[r,:]·A5[:,q] + A6[0,q]) · (A0[r,q]·A1[r,q]). -/
def G17 (A0 A1 A2 : S8192x1024.Idx → EReal) (A3 A4 A5 : S1024x1024.Idx → EReal) (A6 : S1x1024.Idx → EReal) :
    S8192x1024.Idx → EReal := fun i =>
  ((((∑ c : Fin 1024, A0 (ix2 (i 0) c) * A3 (ix2 c (i 1))) + ∑ c : Fin 1024, A1 (ix2 (i 0) c) * A4 (ix2 c (i 1)))
      + ∑ c : Fin 1024, A2 (ix2 (i 0) c) * A5 (ix2 c (i 1))) + A6 (ix2 (0 : Fin 1) (i 1))) * (A0 i * A1 i)

theorem G17_apply (A0 A1 A2 : S8192x1024.Idx → EReal) (A3 A4 A5 : S1024x1024.Idx → EReal) (A6 : S1x1024.Idx → EReal)
    (r : Fin 8192) (q : Fin 1024) :
    G17 A0 A1 A2 A3 A4 A5 A6 (ix2 r q)
      = ((((∑ c : Fin 1024, A0 (ix2 r c) * A3 (ix2 c q)) + ∑ c : Fin 1024, A1 (ix2 r c) * A4 (ix2 c q))
          + ∑ c : Fin 1024, A2 (ix2 r c) * A5 (ix2 c q)) + A6 (ix2 (0 : Fin 1) q)) * (A0 (ix2 r q) * A1 (ix2 r q)) := rfl

/-- With the windows' arrays what the host made of the arguments, the call's result reshaped back to [4, 2048, 1024]
    is `Spec.G` of the arguments. -/
theorem G_of_parts (X Y Z : S4x2048x1024.Idx → EReal) (W : S16384x3072.Idx → EReal) (B : S16384.Idx → EReal) :
    shapeCast S4x2048x1024 (G17 (xflat X) (xflat Y) (xflat Z) (wmat0 W) (wmat1 W) (wmat2 W) (biasRow B)) shapeCasts_S8192x1024_S4x2048x1024
      = Spec.G X Y Z W B := by
  funext i
  obtain ⟨n, l, d, rfl⟩ : ∃ (n : Fin 4) (l : Fin 2048) (d : Fin 1024), i = ix3 n l d := ⟨i 0, i 1, i 2, eq_ix3 i⟩
  rw [shapeCast_apply _ _ _ (ix2 (mrow n l) d) (by
    rw [Shape.rowMajor_val_two, Shape.rowMajor_val_three]
    show (n.val * 2048 + l.val) * 1024 + d.val = (n.val * 2048 + l.val) * 1024 + d.val
    rfl)]
  rw [G17_apply]
  simp only [xflat_apply, wmat0_apply, wmat1_apply, wmat2_apply, biasRow_apply]
  rfl

end Cert.KernelIdeal.Prefix

end
-- ==== Proof.Prefix.lean ====
/-
  What the call finds in its windows' arrays: each is the value the host operations before the call computed from the
  arguments — the three flattened inputs, the three k-summed, cut, transposed weight matrices, the k-summed bias row.
-/
import proofs.«145534_j69303592288826_1_alg».proof.Proof.Gen.KernelIdeal.Frame
import proofs.«145534_j69303592288826_1_alg».proof.Proof.WeightSums
import Idealize.ShloMosaic.Lib.Pipeline.Value
import Idealize.ShloMosaic.Lib.ValueIdx
import Idealize.ShloMosaic.Lib.ValueLayout
import Idealize.ShloMosaic.Lib.StableHlo.Run
import Idealize.ShloMosaic.PureOps.Ideal.Laws

noncomputable section

open scoped BigOperators
open Idealize.ShloMosaic Idealize.ShloMosaic.ValueIdx Idealize.ShloMosaic.TcCoe Idealize.SL.Sem

namespace Cert.KernelIdeal.Prefix

open Cert.KernelIdeal Cert.KernelIdeal.Gen Cert.Spec

variable (m : (ℓ : Loc nD τ sig) → Buf (Elt Ideal) ℓ)

theorem V_v14 (c : Dev nD) : (V m c main_v14 : S8192x1024.Idx → EReal)
    = xflat (m ((c : Thread nD τ).loc main_arg0)) := by
  show StableHlo.after hostOps0 (fun b => m (c, b)) (Proc.devRef .tc main_v14) = _
  after_results
  rfl

theorem V_v6 (c : Dev nD) : (V m c main_v6 : S1024x1024.Idx → EReal)
    = wmat0 (m ((c : Thread nD τ).loc main_arg3)) := by
  show StableHlo.after hostOps0 (fun b => m (c, b)) (Proc.devRef .tc main_v6) = _
  after_results
  rfl

theorem V_v15 (c : Dev nD) : (V m c main_v15 : S8192x1024.Idx → EReal)
    = xflat (m ((c : Thread nD τ).loc main_arg1)) := by
  show StableHlo.after hostOps0 (fun b => m (c, b)) (Proc.devRef .tc main_v15) = _
  after_results
  rfl

theorem V_v16 (c : Dev nD) : (V m c main_v16 : S8192x1024.Idx → EReal)
    = xflat (m ((c : Thread nD τ).loc main_arg2)) := by
  show StableHlo.after hostOps0 (fun b => m (c, b)) (Proc.devRef .tc main_v16) = _
  after_results
  rfl

theorem V_v9 (c : Dev nD) : (V m c main_v9 : S1024x1024.Idx → EReal)
    = wmat1 (m ((c : Thread nD τ).loc main_arg3)) := by
  show StableHlo.after hostOps0 (fun b => m (c, b)) (Proc.devRef .tc main_v9) = _
  after_results
  rfl

theorem V_v12 (c : Dev nD) : (V m c main_v12 : S1024x1024.Idx → EReal)
    = wmat2 (m ((c : Thread nD τ).loc main_arg3)) := by
  show StableHlo.after hostOps0 (fun b => m (c, b)) (Proc.devRef .tc main_v12) = _
  after_results
  rfl

theorem V_v13 (c : Dev nD) : (V m c main_v13 : S1x1024.Idx → EReal)
    = biasRow (m ((c : Thread nD τ).loc main_arg4)) := by
  show StableHlo.after hostOps0 (fun b => m (c, b)) (Proc.devRef .tc main_v13) = _
  after_results
  rfl

end Cert.KernelIdeal.Prefix

end
-- ==== Proof.KerValue.lean ====
/-
  From the blocks the call writes back to its whole result array, and on to @main's result.

  The call runs over 16 points; point t reads rows 512·t … 512·t + 511 of the three flattened inputs, the whole of the
  three weight matrices and of the bias row, and writes back rows 512·t … 512·t + 511 of the [8192, 1024] result.  What
  it writes back is the body's stored value of those blocks (Payload), which is block t of ONE function `G17` of the
  arrays the windows read (`flushed_eq`: a block's entry (p, q) is its array's entry (512·t + p, q)).  The 16 blocks
  cover the array (row r is in block r / 512), so the array ends at `G17` (`final`).  The host then reshapes it to
  [4, 2048, 1024] (`tail`); with the windows' arrays read back through the host operations before the call (Prefix)
  this is `Spec.G` of the arguments (`result_eq`, `run`).
-/
import proofs.«145534_j69303592288826_1_alg».proof.Proof.Gen.KernelIdeal.Frame
import proofs.«145534_j69303592288826_1_alg».proof.Proof.Payload
import proofs.«145534_j69303592288826_1_alg».proof.Proof.Prefix
import Idealize.ShloMosaic.Lib.Pipeline.Value
import Idealize.ShloMosaic.Lib.ValueIdx
import Idealize.ShloMosaic.Lib.StableHlo.Run

set_option maxRecDepth 16384

noncomputable section

open scoped BigOperators
open Idealize.ShloMosaic Idealize.ShloMosaic.ValueIdx Idealize.ShloMosaic.TcCoe Idealize.SL.Sem
open Idealize.ShloMosaic.Pipeline (Dat)

namespace Cert.KernelIdeal.KerValue

open Cert.KernelIdeal Cert.KernelIdeal.Gen Cert.Spec Cert.KernelIdeal.Prefix

variable (m : (ℓ : Loc nD τ sig) → Buf (Elt Ideal) ℓ) (ρ : Dev nD → PrngReg)

theorem hz : (![0, 0] : Fin 2 → Nat) = fun _ => 0 := funext fun a => by fin_cases a <;> rfl

/-- The printed index maps over the grid: the row-blocked windows are at block (t, 0), the resident ones at (0, 0). -/
theorem idx_facts : ∀ t : Fin cfg0.N,
    win0_0.index t (0 : Fin 2) = t.val ∧ win0_0.index t (1 : Fin 2) = 0
    ∧ win0_1.index t (0 : Fin 2) = t.val ∧ win0_1.index t (1 : Fin 2) = 0
    ∧ win0_2.index t (0 : Fin 2) = t.val ∧ win0_2.index t (1 : Fin 2) = 0
    ∧ win0_3.index t (0 : Fin 2) = 0 ∧ win0_3.index t (1 : Fin 2) = 0
    ∧ win0_4.index t (0 : Fin 2) = 0 ∧ win0_4.index t (1 : Fin 2) = 0
    ∧ win0_5.index t (0 : Fin 2) = 0 ∧ win0_5.index t (1 : Fin 2) = 0
    ∧ win0_6.index t (0 : Fin 2) = 0 ∧ win0_6.index t (1 : Fin 2) = 0
    ∧ win0_7.index t (0 : Fin 2) = t.val ∧ win0_7.index t (1 : Fin 2) = 0 :=
  (by decide +kernel : ∀ t : Fin grid0.N, _)

theorem t_lt (t : Fin cfg0.N) : t.val < 16 := by
  have h := t.isLt
  have e : cfg0.N = 16 := N_0
  omega

/-- Row 512·t + p of the flattened arrays: row p of point t's block. -/
def brow (t : Fin cfg0.N) (p : Fin 512) : Fin 8192 := ⟨t.val * 512 + p.val, by have := t_lt t; have := p.isLt; omega⟩

/-! Point t's block of a row-blocked window, at (p, q), is its array at (512·t + p, q); a resident window's is its array at (p, q). -/

theorem emb0 (t : Fin cfg0.N) (p : Fin 512) (q : Fin 1024) :
    ((cfg0.win 0).blk t).view.emb (ix2 p q) = (ix2 (brow t p) q : S8192x1024.Idx) := by
  have e := idx_facts t
  funext a; apply Fin.ext
  match a with
  | ⟨0, _⟩ => show win0_0.index t (0 : Fin 2) * 512 + 1 * p.val = t.val * 512 + p.val; omega
  | ⟨1, _⟩ => show win0_0.index t (1 : Fin 2) * 1024 + 1 * q.val = q.val; omega

theorem emb1 (t : Fin cfg0.N) (p : Fin 512) (q : Fin 1024) :
    ((cfg0.win 1).blk t).view.emb (ix2 p q) = (ix2 (brow t p) q : S8192x1024.Idx) := by
  have e := idx_facts t
  funext a; apply Fin.ext
  match a with
  | ⟨0, _⟩ => show win0_1.index t (0 : Fin 2) * 512 + 1 * p.val = t.val * 512 + p.val; omega
  | ⟨1, _⟩ => show win0_1.index t (1 : Fin 2) * 1024 + 1 * q.val = q.val; omega

theorem emb2 (t : Fin cfg0.N) (p : Fin 512) (q : Fin 1024) :
    ((cfg0.win 2).blk t).view.emb (ix2 p q) = (ix2 (brow t p) q : S8192x1024.Idx) := by
  have e := idx_facts t
  funext a; apply Fin.ext
  match a with
  | ⟨0, _⟩ => show win0_2.index t (0 : Fin 2) * 512 + 1 * p.val = t.val * 512 + p.val; omega
  | ⟨1, _⟩ => show win0_2.index t (1 : Fin 2) * 1024 + 1 * q.val = q.val; omega

theorem emb3 (t : Fin cfg0.N) (p : Fin 1024) (q : Fin 1024) :
    ((cfg0.win 3).blk t).view.emb (ix2 p q) = (ix2 p q : S1024x1024.Idx) := by
  have e := idx_facts t
  funext a; apply Fin.ext
  match a with
  | ⟨0, _⟩ => show win0_3.index t (0 : Fin 2) * 1024 + 1 * p.val = p.val; omega
  | ⟨1, _⟩ => show win0_3.index t (1 : Fin 2) * 1024 + 1 * q.val = q.val; omega

theorem emb4 (t : Fin cfg0.N) (p : Fin 1024) (q : Fin 1024) :
    ((cfg0.win 4).blk t).view.emb (ix2 p q) = (ix2 p q : S1024x1024.Idx) := by
  have e := idx_facts t
  funext a; apply Fin.ext
  match a with
  | ⟨0, _⟩ => show win0_4.index t (0 : Fin 2) * 1024 + 1 * p.val = p.val; omega
  | ⟨1, _⟩ => show win0_4.index t (1 : Fin 2) * 1024 + 1 * q.val = q.val; omega

theorem emb5 (t : Fin cfg0.N) (p : Fin 1024) (q : Fin 1024) :
    ((cfg0.win 5).blk t).view.emb (ix2 p q) = (ix2 p q : S1024x1024.Idx) := by
  have e := idx_facts t
  funext a; apply Fin.ext
  match a with
  | ⟨0, _⟩ => show win0_5.index t (0 : Fin 2) * 1024 + 1 * p.val = p.val; omega
  | ⟨1, _⟩ => show win0_5.index t (1 : Fin 2) * 1024 + 1 * q.val = q.val; omega

theorem emb6 (t : Fin cfg0.N) (p : Fin 1) (q : Fin 1024) :
    ((cfg0.win 6).blk t).view.emb (ix2 p q) = (ix2 p q : S1x1024.Idx) := by
  have e := idx_facts t
  funext a; apply Fin.ext
  match a with
  | ⟨0, _⟩ => show win0_6.index t (0 : Fin 2) * 1 + 1 * p.val = p.val; omega
  | ⟨1, _⟩ => show win0_6.index t (1 : Fin 2) * 1024 + 1 * q.val = q.val; omega

theorem emb7 (t : Fin cfg0.N) (p : Fin 512) (q : Fin 1024) :
    ((cfg0.win 7).blk t).view.emb (ix2 p q) = (ix2 (brow t p) q : S8192x1024.Idx) := by
  have e := idx_facts t
  funext a; apply Fin.ext
  match a with
  | ⟨0, _⟩ => show win0_7.index t (0 : Fin 2) * 512 + 1 * p.val = t.val * 512 + p.val; omega
  | ⟨1, _⟩ => show win0_7.index t (1 : Fin 2) * 1024 + 1 * q.val = q.val; omega

/-! So each input block, read at (p, q), is its array read there. -/

theorem blk0 (c : Dev nD) (t : Fin cfg0.N) (p : Fin 512) (q : Fin 1024) :
    iblk m c 0 t (ix2 p q) = V m c main_v14 (ix2 (brow t p) q) :=
  congrArg (V m c main_v14) (emb0 t p q)

theorem blk1 (c : Dev nD) (t : Fin cfg0.N) (p : Fin 512) (q : Fin 1024) :
    iblk m c 1 t (ix2 p q) = V m c main_v15 (ix2 (brow t p) q) :=
  congrArg (V m c main_v15) (emb1 t p q)

theorem blk2 (c : Dev nD) (t : Fin cfg0.N) (p : Fin 512) (q : Fin 1024) :
    iblk m c 2 t (ix2 p q) = V m c main_v16 (ix2 (brow t p) q) :=
  congrArg (V m c main_v16) (emb2 t p q)

theorem blk3 (c : Dev nD) (t : Fin cfg0.N) (p : Fin 1024) (q : Fin 1024) :
    iblk m c 3 t (ix2 p q) = V m c main_v6 (ix2 p q) :=
  congrArg (V m c main_v6) (emb3 t p q)

theorem blk4 (c : Dev nD) (t : Fin cfg0.N) (p : Fin 1024) (q : Fin 1024) :
    iblk m c 4 t (ix2 p q) = V m c main_v9 (ix2 p q) :=
  congrArg (V m c main_v9) (emb4 t p q)

theorem blk5 (c : Dev nD) (t : Fin cfg0.N) (p : Fin 1024) (q : Fin 1024) :
    iblk m c 5 t (ix2 p q) = V m c main_v12 (ix2 p q) :=
  congrArg (V m c main_v12) (emb5 t p q)

theorem blk6 (c : Dev nD) (t : Fin cfg0.N) (p : Fin 1) (q : Fin 1024) :
    iblk m c 6 t (ix2 p q) = V m c main_v13 (ix2 p q) :=
  congrArg (V m c main_v13) (emb6 t p q)

/-- What point t writes back is block t of `G17` of the arrays the windows read. -/
theorem flushed_eq (c : Dev nD) (t : Fin cfg0.N) :
    (dats m 0 c).flushed 7 t = ((cfg0.win 7).blk t).view.read (Elt Ideal)
      (G17 (V m c main_v14) (V m c main_v15) (V m c main_v16) (V m c main_v6) (V m c main_v9) (V m c main_v12) (V m c main_v13)) := by
  show (cfg0.win 7).cut (grid0.coords t) ((dats m 0 c).after 7 t) = _
  rw [after0_7]
  unfold out0_7
  rw [View.canon_unit_zero hz]
  simp only [View.ld_unit_zero (S := S512x1024) hz, View.ld_unit_zero (S := S1024x1024) hz, View.ld_unit_zero (S := S1x1024) hz]
  funext j
  obtain ⟨p, q, rfl⟩ : ∃ (p : Fin 512) (q : Fin 1024), j = ix2 p q := ⟨j 0, j 1, eq_ix2 j⟩
  show k0_pay1 (iblk m c 0 t) (iblk m c 1 t) (iblk m c 2 t) (iblk m c 3 t) (iblk m c 4 t) (iblk m c 5 t) (iblk m c 6 t) (ix2 p q)
    = G17 (V m c main_v14) (V m c main_v15) (V m c main_v16) (V m c main_v6) (V m c main_v9) (V m c main_v12) (V m c main_v13)
        (((cfg0.win 7).blk t).view.emb (ix2 p q))
  refine (Payload.pay_apply (iblk m c 0 t) (iblk m c 1 t) (iblk m c 2 t) (iblk m c 3 t) (iblk m c 4 t) (iblk m c 5 t) (iblk m c 6 t) p q).trans ?_
  rw [emb7 t p q]
  simp only [blk0, blk1, blk2, blk3, blk4, blk5, blk6]
  rfl

/-- An index of the result array is in point t's block iff each coordinate is in the block's range on its axis. -/
theorem mem_blk (t : Fin cfg0.N) (i : S8192x1024.Idx) :
    i ∈ ((cfg0.win 7).blk t).view.set ↔ ∀ a : Fin 2, win0_7.index t a * S512x1024.size a ≤ (i a).val ∧ (i a).val < win0_7.index t a * S512x1024.size a + S512x1024.size a := by
  show i ∈ ((View.whole main_v17).slice (win0_7.rect t)).set ↔ _
  rw [View.set_slice_whole, Rect.mem_set_unit]
  exact Iff.rfl

/-- Row r of the result array is written back by point r / 512. -/
theorem cover (i : S8192x1024.Idx) : ∃ t : Fin cfg0.N, (cfg0.win 7).flush t = true ∧ i ∈ ((cfg0.win 7).blk t).view.set := by
  have hi0 : (i 0).val < 8192 := (i 0).isLt
  have hi1 : (i 1).val < 1024 := (i 1).isLt
  have ht : (i 0).val / 512 < cfg0.N := by rw [show cfg0.N = 16 from N_0]; omega
  obtain ⟨-, -, -, -, -, -, -, -, -, -, -, -, -, -, e70, e71⟩ := idx_facts ⟨(i 0).val / 512, ht⟩
  refine ⟨⟨(i 0).val / 512, ht⟩, flush0_7 _, ?_⟩
  rw [mem_blk]
  intro a
  match a with
  | ⟨0, _⟩ =>
    show win0_7.index ⟨(i 0).val / 512, ht⟩ (0 : Fin 2) * 512 ≤ (i 0).val ∧ (i 0).val < win0_7.index ⟨(i 0).val / 512, ht⟩ (0 : Fin 2) * 512 + 512
    rw [e70]
    show (i 0).val / 512 * 512 ≤ (i 0).val ∧ (i 0).val < (i 0).val / 512 * 512 + 512
    omega
  | ⟨1, _⟩ =>
    show win0_7.index ⟨(i 0).val / 512, ht⟩ (1 : Fin 2) * 1024 ≤ (i 1).val ∧ (i 1).val < win0_7.index ⟨(i 0).val / 512, ht⟩ (1 : Fin 2) * 1024 + 1024
    rw [e71]
    omega

/-- The call's result array after the run. -/
theorem final (c : Dev nD) : (dats m 0 c).arrAt 7 cfg0.N
    = G17 (V m c main_v14) (V m c main_v15) (V m c main_v16) (V m c main_v6) (V m c main_v9) (V m c main_v12) (V m c main_v13) :=
  (dats m 0 c).arrAt_eq_of_cover 7 _ (fun t _ => flushed_eq m c t) cover

/-- @main's result: the host's reshape of the call's result array. -/
theorem tail (c : Dev nD) : Pipeline.afterTail₀ cfgs (dats m) 0 (V0 m) [hostOps1] c main_v18
    = shapeCast S4x2048x1024 (G17 (V m c main_v14) (V m c main_v15) (V m c main_v16) (V m c main_v6) (V m c main_v9) (V m c main_v12) (V m c main_v13)) shapeCasts_S8192x1024_S4x2048x1024 := by
  unfold Pipeline.afterTail₀
  show StableHlo.after hostOps1 _ (Proc.devRef .tc main_v18) = _
  after_results
  have e : Pipeline.withArrays (cfgs 0).spec c (V0 m c) (fun w => (dats m 0 c).arrAt w (cfgs 0).N) (Proc.devRef .tc main_v17)
      = (dats m 0 c).arrAt 7 cfg0.N := Pipeline.withArrays_arr spec0 launch0.win.arr_inj c _ _ 7
  rw [e, final m c]
  rfl

/-- @main's result is the common function `Spec.G` of the arguments: the flattened inputs, the k-summed weights and
    bias read back at an index, and the flattening undone. -/
theorem result_eq (c : Dev nD) :
    shapeCast S4x2048x1024 (G17 (V m c main_v14) (V m c main_v15) (V m c main_v16) (V m c main_v6) (V m c main_v9) (V m c main_v12) (V m c main_v13)) shapeCasts_S8192x1024_S4x2048x1024
      = Spec.G (m ((c.tc : Thread nD τ).loc main_arg0)) (m ((c.tc : Thread nD τ).loc main_arg1)) (m ((c.tc : Thread nD τ).loc main_arg2))
          (m ((c.tc : Thread nD τ).loc main_arg3)) (m ((c.tc : Thread nD τ).loc main_arg4)) := by
  rw [V_v14, V_v15, V_v16, V_v6, V_v9, V_v12, V_v13]
  exact G_of_parts _ _ _ _ _

/-- The kernel program's run: @main's result ends at `Spec.G` of the arguments, the arguments unchanged. -/
theorem run : θ_run defs (onTc (τ := τ) (main (F := Ideal))) ⟨m, fun _ => 0, ρ⟩ fun r => ∀ c : Dev nD,
      r.2.mem ((c.tc : Thread nD τ).loc main_v18)
        = Spec.G (m ((c.tc : Thread nD τ).loc main_arg0)) (m ((c.tc : Thread nD τ).loc main_arg1)) (m ((c.tc : Thread nD τ).loc main_arg2))
            (m ((c.tc : Thread nD τ).loc main_arg3)) (m ((c.tc : Thread nD τ).loc main_arg4))
      ∧ r.2.mem ((c.tc : Thread nD τ).loc main_arg0) = m ((c.tc : Thread nD τ).loc main_arg0)
      ∧ r.2.mem ((c.tc : Thread nD τ).loc main_arg1) = m ((c.tc : Thread nD τ).loc main_arg1)
      ∧ r.2.mem ((c.tc : Thread nD τ).loc main_arg2) = m ((c.tc : Thread nD τ).loc main_arg2)
      ∧ r.2.mem ((c.tc : Thread nD τ).loc main_arg3) = m ((c.tc : Thread nD τ).loc main_arg3)
      ∧ r.2.mem ((c.tc : Thread nD τ).loc main_arg4) = m ((c.tc : Thread nD τ).loc main_arg4) :=
  (θ_run defs _ _).mono (fun r h c => ⟨
      (((h c).2 main_v18 (Pipeline.mem_restRefs_of main_v18 (by decide) (by decide))).trans (tail m c)).trans (result_eq m c),
      ((h c).2 main_arg0 (Pipeline.mem_restRefs_of main_arg0 (by decide) (by decide))).trans (W_main_arg0 m (dats m) c),
      ((h c).2 main_arg1 (Pipeline.mem_restRefs_of main_arg1 (by decide) (by decide))).trans (W_main_arg1 m (dats m) c),
      ((h c).2 main_arg2 (Pipeline.mem_restRefs_of main_arg2 (by decide) (by decide))).trans (W_main_arg2 m (dats m) c),
      ((h c).2 main_arg3 (Pipeline.mem_restRefs_of main_arg3 (by decide) (by decide))).trans (W_main_arg3 m (dats m) c),
      ((h c).2 main_arg4 (Pipeline.mem_restRefs_of main_arg4 (by decide) (by decide))).trans (W_main_arg4 m (dats m) c)⟩)
    (run_main m ρ)

end Cert.KernelIdeal.KerValue

end
-- ==== Proof.Finite.lean ====
/-
  Every entry of an input that satisfies the precondition is a real number, and so on such inputs the reference's
  value is the kernel's.

  The precondition is the conjunction, over the five inputs, of "every entry's absolute value is below +∞" (each a
  reduction by `and` over the whole array).  At the ideal values the absolute value of x is max x (−x), which is +∞ at
  both infinities, so each entry is a real number; the law of Spec.lean then applies.
-/
import proofs.«145534_j69303592288826_1_alg».proof.Pre_finite_inputs
import proofs.«145534_j69303592288826_1_alg».proof.Proof.Gen.Pre_finite_inputs
import Idealize.ShloMosaic.Lib.ReduceAll
import Idealize.ShloMosaic.Lib.ValueIdx
import Idealize.ShloMosaic.PureOps.Ideal
import proofs.«145534_j69303592288826_1_alg».proof.Proof.Spec

noncomputable section

open Idealize.ShloMosaic

namespace Cert.Pre_finite_inputs.Finite

open Cert.Pre_finite_inputs Cert.Pre_finite_inputs.Gen

instance : Subsingleton S_.Idx := ⟨fun a b => funext fun d => d.elim0⟩

/-- The pattern 0x7F800000 is +∞. -/
theorem inf_eq : Ideal.ofBits .f32 0x7F800000#32 = (⊤ : EReal) := by simp [Ideal.ofBits, Ideal.ieee]

/-- An extended real whose absolute value max x (−x) is below +∞ is a real number. -/
theorem real_of_abs_lt (x : EReal) (h : Ideal.cmp .olt (max x (-x)) (Ideal.ofBits .f32 0x7F800000#32) = 1#1) : ∃ r : ℝ, x = (r : EReal) := by
  rw [inf_eq] at h
  induction x using EReal.rec with
  | bot => simp [Ideal.cmp] at h
  | top => simp [Ideal.cmp] at h
  | coe r => exact ⟨r, rfl⟩

/-- Under the precondition every entry of every input is a real number. -/
theorem finite_of_pre (X Y Z : S4x2048x1024.Idx → EReal) (W : S16384x3072.Idx → EReal) (B : S16384.Idx → EReal)
    (h : fn (F := Ideal) X Y Z W B = fun _ => 1#1) :
    (∀ i, ∃ r : ℝ, X i = (r : EReal)) ∧ (∀ i, ∃ r : ℝ, Y i = (r : EReal)) ∧ (∀ i, ∃ r : ℝ, Z i = (r : EReal))
      ∧ (∀ i, ∃ r : ℝ, W i = (r : EReal)) ∧ (∀ i, ∃ r : ℝ, B i = (r : EReal)) := by
  have h0 := congrFun h ValueIdx.ix0
  dsimp only [fn, fn_part1] at h0
  obtain ⟨h1234, h5⟩ := IntOp.andi_eq_one.mp h0
  obtain ⟨h123, h4⟩ := IntOp.andi_eq_one.mp h1234
  obtain ⟨h12, h3⟩ := IntOp.andi_eq_one.mp h123
  obtain ⟨h1, h2⟩ := IntOp.andi_eq_one.mp h12
  exact ⟨fun i => real_of_abs_lt (X i) (Host.reduce_andi_all _ _ _ _ ValueIdx.ix0 h1 i),
    fun i => real_of_abs_lt (Y i) (Host.reduce_andi_all _ _ _ _ ValueIdx.ix0 h2 i),
    fun i => real_of_abs_lt (Z i) (Host.reduce_andi_all _ _ _ _ ValueIdx.ix0 h3 i),
    fun i => real_of_abs_lt (W i) (Host.reduce_andi_all _ _ _ _ ValueIdx.ix0 h4 i),
    fun i => real_of_abs_lt (B i) (Host.reduce_andi_all _ _ _ _ ValueIdx.ix0 h5 i)⟩

/-- Under the precondition the reference's value at (n, l, d) is the kernel's. -/
theorem refAt_eq_kerAt_of_pre (X Y Z : S4x2048x1024.Idx → EReal) (W : S16384x3072.Idx → EReal) (B : S16384.Idx → EReal)
    (h : fn (F := Ideal) X Y Z W B = fun _ => 1#1) (n : Fin 4) (l : Fin 2048) (d : Fin 1024) :
    Cert.Spec.refAt X Y Z W B n l d = Cert.Spec.kerAt X Y Z W B n l d := by
  obtain ⟨hX, hY, hZ, hW, hB⟩ := finite_of_pre X Y Z W B h
  choose xr hxr using hX
  choose yr hyr using hY
  choose zr hzr using hZ
  choose wr hwr using hW
  choose br hbr using hB
  obtain rfl : X = fun j => (xr j : EReal) := funext hxr
  obtain rfl : Y = fun j => (yr j : EReal) := funext hyr
  obtain rfl : Z = fun j => (zr j : EReal) := funext hzr
  obtain rfl : W = fun j => (wr j : EReal) := funext hwr
  obtain rfl : B = fun j => (br j : EReal) := funext hbr
  exact Cert.Spec.refAt_eq_kerAt xr yr zr wr br n l d

end Cert.Pre_finite_inputs.Finite

end
-- ==== Proof.lean ====
/-
  The kernel against its reference, over the extended reals.

  Inputs x, y, z : [4, 2048, 1024], W : [16384, 3072], b : [16384].  The reference concatenates a row of x, y, z into 3072
  columns, contracts it with every row of W, adds b, regroups the 16384 results as (d, k) = [1024, 16], sums over k, and
  multiplies by x·y.  The kernel sums W and b over k first — on the host, before the call —, cuts the k-summed W into
  its three runs of 1024 columns, and in one call over 16 row blocks of 512 computes
  ((x·Wx + y·Wy) + z·Wz + bias)·(x·y); the host reshapes the [8192, 1024] result back.

  Both programs end at one function `Spec.G` of the arguments:
  · the kernel's result array is the call's blocks put together (each block is the body's stored value of the input
    blocks, and the 16 blocks tile the array), read through the host operations before and after the call (KerValue);
  · the reference's result, operation by operation at an index, is `Spec.refAt` (RefValue);
  · `refAt = kerAt` is distributivity of · over the sum over k, which needs every entry finite: that is what the
    precondition gives (Finite, Spec).
  The ideal pass rewrote nothing, so the kernel's idealization is its own text and `preserves` is trivial; the three
  frames are the generated frame runs (the reference's: its generated run with the result dropped).
-/
import proofs.«145534_j69303592288826_1_alg».proof.Defs
import proofs.«145534_j69303592288826_1_alg».proof.Proof.Gen.Kernel
import proofs.«145534_j69303592288826_1_alg».proof.Proof.Gen.Kernel.Skeleton
import proofs.«145534_j69303592288826_1_alg».proof.Proof.Gen.Kernel.Launch
import proofs.«145534_j69303592288826_1_alg».proof.Proof.Gen.Kernel.Points
import proofs.«145534_j69303592288826_1_alg».proof.Proof.Gen.Kernel.Frame
import proofs.«145534_j69303592288826_1_alg».proof.Proof.Gen.KernelIdeal
import proofs.«145534_j69303592288826_1_alg».proof.Proof.Gen.KernelIdeal.Skeleton
import proofs.«145534_j69303592288826_1_alg».proof.Proof.Gen.KernelIdeal.Launch
import proofs.«145534_j69303592288826_1_alg».proof.Proof.Gen.KernelIdeal.Points
import proofs.«145534_j69303592288826_1_alg».proof.Proof.Gen.KernelIdeal.Frame
import proofs.«145534_j69303592288826_1_alg».proof.Proof.Gen.ReferenceIdeal
import proofs.«145534_j69303592288826_1_alg».proof.Proof.Gen.ReferenceIdeal.Run
import proofs.«145534_j69303592288826_1_alg».proof.Proof.Gen.ReferenceIdeal.Read
import proofs.«145534_j69303592288826_1_alg».proof.Proof.Gen.Pre_finite_inputs
import proofs.«145534_j69303592288826_1_alg».proof.Proof.RefValue
import proofs.«145534_j69303592288826_1_alg».proof.Proof.KerValue
import proofs.«145534_j69303592288826_1_alg».proof.Proof.Finite
import Idealize.ShloMosaic.Adequacy
import Idealize.ShloMosaic.Init

noncomputable section

namespace Cert.Proof

open Idealize.ShloMosaic Idealize.ShloMosaic.ValueIdx Idealize.SL.Sem

theorem frame_kernel : Cert.frame_Kernel := fun m ρ _ => Cert.Kernel.Gen.frame m ρ

theorem frame_kernelIdeal : Cert.frame_KernelIdeal := fun m ρ _ => Cert.KernelIdeal.Gen.frame m ρ

theorem frame_referenceIdeal : Cert.frame_ReferenceIdeal := fun m ρ _ =>
  (θ_run Cert.ReferenceIdeal.defs _ _).mono (fun _ h c => (h c).2) (Cert.ReferenceIdeal.Value.run (F := Ideal) m ρ)

/-- The ideal pass rewrote no operation. -/
theorem preserves : Cert.preserves_Kernel_KernelIdeal := trivial

/-- From memories agreeing on the arguments, of which the precondition holds, both idealized programs end with their
    result at `Spec.G` of the arguments: the kernel by its run read back, the reference by its run read at an index and
    the law for real entries. -/
theorem algebraic : Cert.algebraic_KernelIdeal_ReferenceIdeal := by
  intro m ρ m' ρ' hpre hagree
  refine ⟨fun c => Cert.Spec.G
      (m ((c.tc : Thread Cert.KernelIdeal.nD Cert.KernelIdeal.τ).loc Cert.KernelIdeal.main_arg0))
      (m ((c.tc : Thread Cert.KernelIdeal.nD Cert.KernelIdeal.τ).loc Cert.KernelIdeal.main_arg1))
      (m ((c.tc : Thread Cert.KernelIdeal.nD Cert.KernelIdeal.τ).loc Cert.KernelIdeal.main_arg2))
      (m ((c.tc : Thread Cert.KernelIdeal.nD Cert.KernelIdeal.τ).loc Cert.KernelIdeal.main_arg3))
      (m ((c.tc : Thread Cert.KernelIdeal.nD Cert.KernelIdeal.τ).loc Cert.KernelIdeal.main_arg4)),
    Cert.KernelIdeal.KerValue.run m ρ, ?_⟩
  refine (θ_run Cert.ReferenceIdeal.defs _ _).mono (fun _ h c => ⟨(h c).1.trans ?_, (h c).2⟩)
    (Cert.ReferenceIdeal.Value.run (F := Ideal) m' ρ')
  rw [(hagree c).1, (hagree c).2.1, (hagree c).2.2.1, (hagree c).2.2.2.1, (hagree c).2.2.2.2,
    Cert.ReferenceIdeal.Read.val_main_v8_eq]
  funext i
  obtain ⟨n, l, d, rfl⟩ : ∃ (n : Fin 4) (l : Fin 2048) (d : Fin 1024), i = ix3 n l d := ⟨i 0, i 1, i 2, eq_ix3 i⟩
  exact (Cert.ReferenceIdeal.RefValue.ref_eq _ _ _ _ _ n l d).trans
    (Cert.Pre_finite_inputs.Finite.refAt_eq_kerAt_of_pre _ _ _ _ _ (hpre c) n l d)

theorem claim : Cert.Claim := ⟨Cert.Kernel.Gen.facts, Cert.KernelIdeal.Gen.facts, Cert.ReferenceIdeal.Gen.facts, Cert.Pre_finite_inputs.Gen.facts,
  frame_kernel, frame_kernelIdeal, frame_referenceIdeal, preserves, algebraic⟩

end Cert.Proof

end
